-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32x128 : Shape := ⟨3, ![10000, 32, 128]⟩
abbrev S128x128 : Shape := ⟨2, ![128, 128]⟩
abbrev S128 : Shape := ⟨1, ![128]⟩
abbrev S_ : Shape := ⟨0, ![]⟩

class Facts : Prop where
  bcast_S_S10000x32x128 : S_.BroadcastsInDim S10000x32x128 (![] : Fin 0 → Fin S10000x32x128.rank)
  reducesTo_S10000x32x128_S_d0_1_2 : S10000x32x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S10000x32x128 .f32) (main_arg1 : FVec F S128x128 .f32) (main_arg2 : FVec F S128 .f32) : IVec S_ 1 :=
  let main_v0 : FVec F S10000x32x128 .f32 := Host.absf main_arg0
  let main_cst : FVec F S_ .f32 := constant S_ .f32 0x7F800000#32
  let main_v1 : FVec F S10000x32x128 .f32 := broadcastInDim S10000x32x128 ![] bcast_S_S10000x32x128 main_cst
  let main_v2 : IVec S10000x32x128 1 := cmpf .olt main_v0 main_v1
  let main_c : IVec S_ 1 := constantI S_ 1 1#1
  let main_v3 : IVec S_ 1 := (fun x v => Host.reduce IntOp.andi x v reducesTo_S10000x32x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S10000x32x128 : Shape := ⟨3, ![10000, 32, 128]⟩
abbrev S128x128 : Shape := ⟨2, ![128, 128]⟩
abbrev S128 : Shape := ⟨1, ![128]⟩
abbrev S5x2000x32x128 : Shape := ⟨4, ![5, 2000, 32, 128]⟩
abbrev S1x128 : Shape := ⟨2, ![1, 128]⟩
abbrev S5x2000x128 : Shape := ⟨3, ![5, 2000, 128]⟩
abbrev S1x200x32x128 : Shape := ⟨4, ![1, 200, 32, 128]⟩
abbrev S5x200x128 : Shape := ⟨3, ![5, 200, 128]⟩
abbrev S6400x128 : Shape := ⟨2, ![6400, 128]⟩
abbrev S200x32x128 : Shape := ⟨3, ![200, 32, 128]⟩
abbrev S200x128 : Shape := ⟨2, ![200, 128]⟩
abbrev S1x200x128 : Shape := ⟨3, ![1, 200, 128]⟩
abbrev S10000x128 : Shape := ⟨2, ![10000, 128]⟩

abbrev nBuf : Space → Nat
  | .hbm => 8
  | .vmem => 14
  | .smem => 0
  | _ => 0

abbrev bufTy : (tb : Table) → Fin (tcTables nBuf tb) → BufTy
  | .hbm, ⟨0, _⟩ => ⟨S10000x32x128, .f32⟩
  | .hbm, ⟨1, _⟩ => ⟨S128x128, .f32⟩
  | .hbm, ⟨2, _⟩ => ⟨S128, .f32⟩
  | .hbm, ⟨3, _⟩ => ⟨S5x2000x32x128, .f32⟩
  | .hbm, ⟨4, _⟩ => ⟨S128x128, .f32⟩
  | .hbm, ⟨5, _⟩ => ⟨S1x128, .f32⟩
  | .hbm, ⟨6, _⟩ => ⟨S5x2000x128, .f32⟩
  | .hbm, ⟨7, _⟩ => ⟨S10000x128, .f32⟩
  | .local _ .vmem, ⟨0, _⟩ => ⟨S1x200x32x128, .f32⟩
  | .local _ .vmem, ⟨1, _⟩ => ⟨S1x200x32x128, .f32⟩
  | .local _ .vmem, ⟨2, _⟩ => ⟨S1x200x32x128, .f32⟩
  | .local _ .vmem, ⟨3, _⟩ => ⟨S1x200x32x128, .f32⟩
  | .local _ .vmem, ⟨4, _⟩ => ⟨S1x200x32x128, .f32⟩
  | .local _ .vmem, ⟨5, _⟩ => ⟨S1x200x32x128, .f32⟩
  | .local _ .vmem, ⟨6, _⟩ => ⟨S1x200x32x128, .f32⟩
  | .local _ .vmem, ⟨7, _⟩ => ⟨S1x200x32x128, .f32⟩
  | .local _ .vmem, ⟨8, _⟩ => ⟨S1x200x32x128, .f32⟩
  | .local _ .vmem, ⟨9, _⟩ => ⟨S1x200x32x128, .f32⟩
  | .local _ .vmem, ⟨10, _⟩ => ⟨S128x128, .f32⟩
  | .local _ .vmem, ⟨11, _⟩ => ⟨S1x128, .f32⟩
  | .local _ .vmem, ⟨12, _⟩ => ⟨S5x200x128, .f32⟩
  | .local _ .vmem, ⟨13, _⟩ => ⟨S5x200x128, .f32⟩
  | _, _ => ⟨S10000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_4 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x200x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x200x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x200x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x200x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5x200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S10000x32x128_S5x2000x32x128 : S10000x32x128.ShapeCasts S5x2000x32x128
  transposes_S128x128_S128x128_1_0 : S128x128.Transposes [1, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x200x32x128_S1x200x32x128_0_0_0_0 : ∀ a, (![0, 0, 0, 0] : Fin 4 → Nat) a + S1x200x32x128.size a ≤ S1x200x32x128.size a
  h_S1x200x32x128 : 0 < S1x200x32x128.numel
  shapeCasts_S1x200x32x128_S1x200x32x128 : S1x200x32x128.ShapeCasts S1x200x32x128
  shapeCasts_S1x200x32x128_S6400x128 : S1x200x32x128.ShapeCasts S6400x128
  shapeCasts_S6400x128_S200x32x128 : S6400x128.ShapeCasts S200x32x128
  reduces_S200x32x128_S200x128 : S200x32x128.Reduces [1] S200x128
  broadcasts_S1x128_S200x128 : S1x128.Broadcasts S200x128
  inb_S5x200x128_S1x200x128_0_0_0 : ∀ a, (![0, 0, 0] : Fin 3 → Nat) a + S1x200x128.size a ≤ S5x200x128.size a
  h_S1x200x128 : 0 < S1x200x128.numel
  shapeCasts_S1x200x128_S200x128 : S1x200x128.ShapeCasts S200x128
  shapeCasts_S200x128_S1x200x128 : S200x128.ShapeCasts S1x200x128
  inb_S5x200x128_S1x200x128_1_0_0 : ∀ a, (![1, 0, 0] : Fin 3 → Nat) a + S1x200x128.size a ≤ S5x200x128.size a
  inb_S5x200x128_S1x200x128_2_0_0 : ∀ a, (![2, 0, 0] : Fin 3 → Nat) a + S1x200x128.size a ≤ S5x200x128.size a
  inb_S5x200x128_S1x200x128_3_0_0 : ∀ a, (![3, 0, 0] : Fin 3 → Nat) a + S1x200x128.size a ≤ S5x200x128.size a
  inb_S5x200x128_S1x200x128_4_0_0 : ∀ a, (![4, 0, 0] : Fin 3 → Nat) a + S1x200x128.size a ≤ S5x200x128.size a
  shapeCasts_S5x2000x128_S10000x128 : S5x2000x128.ShapeCasts S10000x128
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x32x128.size a ≤ S5x2000x32x128.size a
  hwx0_0 : ∀ i : grid0.Coords, EltTy.bits .f32 = 32 ∨ (Rect.block (s := S5x2000x32x128) S1x200x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x32x128.size a ≤ S5x2000x32x128.size a
  hwx0_1 : ∀ i : grid0.Coords, EltTy.bits .f32 = 32 ∨ (Rect.block (s := S5x2000x32x128) S1x200x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x32x128.size a ≤ S5x2000x32x128.size a
  hwx0_2 : ∀ i : grid0.Coords, EltTy.bits .f32 = 32 ∨ (Rect.block (s := S5x2000x32x128) S1x200x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x32x128.size a ≤ S5x2000x32x128.size a
  hwx0_3 : ∀ i : grid0.Coords, EltTy.bits .f32 = 32 ∨ (Rect.block (s := S5x2000x32x128) S1x200x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x200x32x128.size a ≤ S5x2000x32x128.size a
  hwx0_4 : ∀ i : grid0.Coords, EltTy.bits .f32 = 32 ∨ (Rect.block (s := S5x2000x32x128) S1x200x32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5x200x128.size a ≤ S5x2000x128.size a
  hwx0_7 : ∀ i : grid0.Coords, EltTy.bits .f32 = 32 ∨ (Rect.block (s := S5x2000x128) S5x200x128.size (cc0_transform_7 i) (hinb0_7 i)).WholeWords (EltTy.packing .f32)

variable [Facts₀]

def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v0) S1x200x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x200x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x200x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x200x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x200x32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S5x200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x32x128 : Shape := ⟨3, ![10000, 32, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S10000x128 : Shape := ⟨2, ![10000, 128]⟩

abbrev nBuf : Space → Nat
  | .hbm => 9
  | .vmem => 0
  | .smem => 0
  | _ => 0

abbrev bufTy : (tb : Table) → Fin (tcTables nBuf tb) → BufTy
  | .hbm, ⟨0, _⟩ => ⟨S10000x32x128, .f32⟩
  | .hbm, ⟨1, _⟩ => ⟨S128x128, .f32⟩
  | .hbm, ⟨2, _⟩ => ⟨S128, .f32⟩
  | .hbm, ⟨3, _⟩ => ⟨S10000x32x128, .f32⟩
  | .hbm, ⟨4, _⟩ => ⟨S1x1x128, .f32⟩
  | .hbm, ⟨5, _⟩ => ⟨S10000x32x128, .f32⟩
  | .hbm, ⟨6, _⟩ => ⟨S10000x32x128, .f32⟩
  | .hbm, ⟨7, _⟩ => ⟨S_, .f32⟩
  | .hbm, ⟨8, _⟩ => ⟨S10000x128, .f32⟩
  | _, _ => ⟨S10000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S10000x32x128_0_1_2 : S1x1x128.BroadcastsInDim S10000x32x128 (![0, 1, 2] : Fin 3 → Fin S10000x32x128.rank)
  reducesTo_S10000x32x128_S10000x128_d1 : S10000x32x128.ReducesTo [1] S10000x128
  h_S_ : 0 < S_.numel
  dot_S10000x32x128_S128x128_S10000x32x128_2_1_01_0_n_n_wf : DotDims.WF S10000x32x128 S128x128 S10000x32x128 [2] [1] [0, 1] [0] [] []

variable [Facts₀]

def dot_S10000x32x128_S128x128_S10000x32x128_2_1_01_0_n_n : DotDims S10000x32x128 S128x128 S10000x32x128 where
  lhsContracting := [2]
  rhsContracting := [1]
  lhsNonContracting := [0, 1]
  rhsNonContracting := [0]
  lhsBatch := []
  rhsBatch := []
  wf := dot_S10000x32x128_S128x128_S10000x32x128_2_1_01_0_n_n_wf

class Facts : Prop extends Facts₀ where

variable [Facts]
-- ==== Proof.K.Body.lean ====
/-
  The kernel body of the word-level program, run once on whole staging buffers.

  The body reads the weight block and the bias row, and for each of the five node streams j loads that stream's block
  of 200 nodes × 32 neighbours × 128 features, multiplies the 6400 rows by the transposed weights, takes for every node
  the maximum over its 32 neighbours, adds the bias row, and stores the 200 × 128 result as slab j of the output
  buffer. The five slabs tile the output buffer, so what the buffer holds afterwards does not depend on what it held
  before: it is the five stored values laid side by side (`left7`). The loads of the output buffer the body also makes
  are dead.
-/
import proofs.«118236_g6957847019598_cont_9to1c4b_83_9_alg».proof.Proof.Gen.Kernel.Launch
import proofs.«118236_g6957847019598_cont_9to1c4b_83_9_alg».proof.Proof.Gen.Kernel.Skeleton
import proofs.«118236_g6957847019598_cont_9to1c4b_83_9_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five slabs of the output buffer -/

/-- Slab `j` of the output buffer: row `j` of the leading axis, all 200 nodes, all 128 columns. -/
abbrev slab0 : Rect S5x200x128 := Rect.unit (s := S5x200x128) ![0, 0, 0] S1x200x128.size inb_S5x200x128_S1x200x128_0_0_0
abbrev slab1 : Rect S5x200x128 := Rect.unit (s := S5x200x128) ![1, 0, 0] S1x200x128.size inb_S5x200x128_S1x200x128_1_0_0
abbrev slab2 : Rect S5x200x128 := Rect.unit (s := S5x200x128) ![2, 0, 0] S1x200x128.size inb_S5x200x128_S1x200x128_2_0_0
abbrev slab3 : Rect S5x200x128 := Rect.unit (s := S5x200x128) ![3, 0, 0] S1x200x128.size inb_S5x200x128_S1x200x128_3_0_0
abbrev slab4 : Rect S5x200x128 := Rect.unit (s := S5x200x128) ![4, 0, 0] S1x200x128.size inb_S5x200x128_S1x200x128_4_0_0

/-- The whole of a stream's staged block. -/
abbrev wholeX : Rect S1x200x32x128 := Rect.unit (s := S1x200x32x128) ![0, 0, 0, 0] S1x200x32x128.size inb_S1x200x32x128_S1x200x32x128_0_0_0_0
/-- The whole of the weight block and of the bias row. -/
abbrev wholeW : Rect S128x128 := Rect.unit (s := S128x128) ![0, 0] S128x128.size inb_S128x128_S128x128_0_0
abbrev wholeB : Rect S1x128 := Rect.unit (s := S1x128) ![0, 0] S1x128.size inb_S1x128_S1x128_0_0

/-- What the body leaves in the output buffer, from the five stream blocks `x0 … x4`, the weight block `w` and the bias
    row `b`: its five stores as pieces, the last store first. -/
def left7 (x0 x1 x2 x3 x4 : Vec F S1x200x32x128 .f32) (w : Vec F S128x128 .f32) (b : Vec F S1x128 .f32) : Vec F S5x200x128 .f32 :=
  View.canon [⟨slab4, k0_pay8 (k0_pay1 (View.ld w wholeW)) (k0_pay2 (View.ld b wholeB)) (View.ld x4 wholeX)⟩,
    ⟨slab3, k0_pay7 (k0_pay1 (View.ld w wholeW)) (k0_pay2 (View.ld b wholeB)) (View.ld x3 wholeX)⟩,
    ⟨slab2, k0_pay6 (k0_pay1 (View.ld w wholeW)) (k0_pay2 (View.ld b wholeB)) (k0_pay5 (View.ld x2 wholeX))⟩,
    ⟨slab1, k0_pay4 (View.ld w wholeW) (View.ld b wholeB) (View.ld x1 wholeX)⟩,
    ⟨slab0, k0_pay3 (View.ld w wholeW) (View.ld b wholeB) (View.ld x0 wholeX)⟩]

/-- The five slabs tile the buffer, so every element of it lies in one of them. -/
theorem slabs_cover (p4 p3 p2 p1 p0 : Vec F S1x200x128 .f32) (y : S5x200x128.Idx) :
    ∃ pc ∈ ([⟨slab4, p4⟩, ⟨slab3, p3⟩, ⟨slab2, p2⟩, ⟨slab1, p1⟩, ⟨slab0, p0⟩] : List (View.Piece (Elt F) S5x200x128 .f32)), y ∈ pc.1.set :=
  View.cover_of_tiled [⟨slab4, p4⟩, ⟨slab3, p3⟩, ⟨slab2, p2⟩, ⟨slab1, p1⟩, ⟨slab0, p0⟩] S1x200x128.size (by rfl) y

/-! ## The body's triple -/

set_option maxHeartbeats 4000000 in
/-- The body on whole staging buffers — the seven inputs' at contents `x0 … x4`, `w`, `b`, the output's at anything — runs
    to its end holding the inputs' as they were and the output's at `left7` of them. -/
theorem body_run (c : Dev nD) (E : Set ℕ) (i : grid0.Coords)
    (arg1 : Memref sig .tc .vmem S1x200x32x128 .f32) (harg1 : arg1.IsWhole) (arg2 : Memref sig .tc .vmem S1x200x32x128 .f32) (harg2 : arg2.IsWhole)
    (arg3 : Memref sig .tc .vmem S1x200x32x128 .f32) (harg3 : arg3.IsWhole) (arg4 : Memref sig .tc .vmem S1x200x32x128 .f32) (harg4 : arg4.IsWhole)
    (arg5 : Memref sig .tc .vmem S1x200x32x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5x200x128 .f32) (harg8 : arg8.IsWhole)
    (x0 x1 x2 x3 x4 : Vec F S1x200x32x128 .f32) (w : Vec F S128x128 .f32) (b : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare w
        ∗ owns (c : Thread nD τ) arg7 fullShare b ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare w
            ∗ owns (c : Thread nD τ) arg7 fullShare b ∗ owns (c : Thread nD τ) arg8 fullShare (left7 x0 x1 x2 x3 x4 w b)) -∗ K ⟨⟩))
      ⊢ wp frame (wpE (defs₀ (F := F)) Variants.none c none) E
          (cc0__agg_kernel i arg1 harg1 arg2 harg2 arg3 harg3 arg4 harg4 arg5 harg5 arg6 harg6 arg7 harg7 arg8 harg8) K := by
  simp only [cc0__agg_kernel_eq_skeleton]; unfold cc0__agg_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (slabs_cover _ _ _ _ _)

end Cert.Kernel.Hand

end
-- ==== Proof.K.Data.lean ====
/-
  The proof data of the kernel call, and the body obligation.

  When the call is entered the host has already cut the neighbour array into five streams, transposed the weights and
  made the bias a one-row matrix (`V`). At grid point t window j ≤ 4 stages block (j, t, 0, 0) of the streamed array —
  stream j's nodes 200·t … 200·t + 199 —, windows 5 and 6 the whole weight and bias matrices, and window 7 receives
  block (0, t, 0) of the result: all five streams' rows 200·t … 200·t + 199. The five windows on the streamed array only
  read it, so each holds one of five disjoint parts of the full share of it (`qshare`). After the body each input's
  buffer still holds its block and the output's holds `left7` of the seven input blocks; nothing is carried between
  points.
-/
import proofs.«118236_g6957847019598_cont_9to1c4b_83_9_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffer contents when the call is entered: after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three host operations, the call, and the one host operation after it: it reduces to the call
    continued by that last operation, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- How the full share of the streamed array is dealt among the five windows that read it: five disjoint parts. The
    other windows hold their own arrays whole. -/
def qshare : Fin 8 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | ⟨5, _⟩ => fullShare
  | ⟨6, _⟩ => fullShare
  | ⟨_ + 7, _⟩ => fullShare

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 (iblk m c 0 t) (iblk m c 1 t) (iblk m c 2 t) (iblk m c 3 t) (iblk m c 4 t) (iblk m c 5 t) (iblk m c 6 t)
  Φ _ := Pipeline.ΦA spec0 c
  q := qshare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) :
    (dats m 0 c).after 7 t = left7 (iblk m c 0 t) (iblk m c 1 t) (iblk m c 2 t) (iblk m c 3 t) (iblk m c 4 t) (iblk m c 5 t) (iblk m c 6 t) := by
  dsimp only [dats]

/-! ## Each input's staging buffer holds its block at every point, fetched there or not -/

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The run of the word-level program: the launch of its one kernel call and the host operation after it.

  Five windows of the call read ONE array (the streamed neighbour array), so the launch is told how that array's full
  share is dealt among them (`arrays_split`: halved four times, each window one part); the weight, bias and result
  arrays each belong to one window, whole. After the call the last host operation lays the result's five streams end to
  end into the program's result; it reads the result array, which the call hands back whole, and writes a buffer that
  bypassed the call (`tail_run`). The run ends with every window's array at what the write-backs made of it and every
  other buffer at what that last operation leaves.
-/
import proofs.«118236_g6957847019598_cont_9to1c4b_83_9_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's pipelines as pipelines with (no) prefetched tables, and their (empty) admissible tables. -/
abbrev pcs : Fin 1 → Pipeline.PCfg sig Λ₀ (Elt F) := fun q => (cfgs q).toPCfg (Val := Elt F)
abbrev adm : (p : Fin 1) → (pcs (F := F) p).Adm := fun q => (cfgs q).toPCfg_adm

/-- The result array when the call returns. -/
abbrev outArr (c : Dev nD) : (main_v3 : Ref sig .tc).ty.Contents (Elt F) := (dats m 0 c).arrAt 7 cfg0.N

/-- Core `c`'s buffers when the call returns: the result array at what the call wrote, everything else as it was
    entered (the inputs are only read). -/
abbrev Vexit (c : Dev nD) : Valuation τ sig (Elt F) := (StableHlo.nullary main_v3 (outArr m c)).result (V0 m c)

/-- And at the end of @main: after the one host operation that follows the call. -/
abbrev Vend (c : Dev nD) : Valuation τ sig (Elt F) := StableHlo.after hostOps1 (Vexit m c)

/-- The distinct buffers behind the eight windows' arrays are four: the streamed array, the transposed weights, the bias
    row and the result. -/
theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact Idealize.SL.BI.bigSep_eq_bigSepL_of_eq [main_v0, main_v1, main_v2, main_v3] (by decide) (by decide) _

/-- The full share of the streamed array, held whole, is the five windows' parts of it; the other three arrays go to
    their one window whole. -/
theorem arrays_split (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [View.set_whole]
  rw [show (dats m 0 c).share 0 = fullShare.left from rfl, show (dats m 0 c).share 1 = fullShare.right.left from rfl,
    show (dats m 0 c).share 2 = fullShare.right.right.left from rfl, show (dats m 0 c).share 3 = fullShare.right.right.right.left from rfl,
    show (dats m 0 c).share 4 = fullShare.right.right.right.right from rfl, show (dats m 0 c).share 5 = fullShare from rfl,
    show (dats m 0 c).share 6 = fullShare from rfl, show (dats m 0 c).share 7 = fullShare from rfl]
  iintro ⟨H0, H1, H2, H3⟩
  ihave H0' := (pointsTo_share (PosShare.mem_left_op_right fullShare)).1 $$ H0
  icases H0' with ⟨Ha, H0⟩
  ihave H0' := (pointsTo_share (PosShare.mem_left_op_right fullShare.right)).1 $$ H0
  icases H0' with ⟨Hb, H0⟩
  ihave H0' := (pointsTo_share (PosShare.mem_left_op_right fullShare.right.right)).1 $$ H0
  icases H0' with ⟨Hc, H0⟩
  ihave H0' := (pointsTo_share (PosShare.mem_left_op_right fullShare.right.right.right)).1 $$ H0
  icases H0' with ⟨Hd, He⟩
  isplitl [Ha]; · iexact Ha
  isplitl [Hb]; · iexact Hb
  isplitl [Hc]; · iexact Hc
  isplitl [Hd]; · iexact Hd
  isplitl [He]; · iexact He
  isplitl [H1]; · iexact H1
  isplitl [H2]; · iexact H2
  iexact H3

/-! ## The host operation after the call -/

/-- At the call's exit the result array holds what the call wrote, -/
theorem Vexit_out (c : Dev nD) : Vexit m c (Proc.devRef .tc main_v3) = outArr m c :=
  StableHlo.nullary_result main_v3 _ _ _
/-- and every other buffer what it held when the call was entered. -/
theorem Vexit_keep (c : Dev nD) (r : Ref sig .tc) (h : r ≠ main_v3) : Vexit m c (Proc.devRef .tc r) = V m c r :=
  StableHlo.nullary_result_ne _ _ _ _ h
/-- The last host operation writes the program's result only. -/
theorem Vend_keep (c : Dev nD) (r : Ref sig .tc) (h : r ≠ main_v4) : Vend m c (Proc.devRef .tc r) = Vexit m c (Proc.devRef .tc r) := by
  show StableHlo.after hostOps1 (Vexit m c) _ = _
  simp only [hostOps1, StableHlo.after_cons, StableHlo.after_nil]
  exact StableHlo.reshape_result_ne _ _ _ _ _ _ _ h

/-- The two buffers the last host operation touches: the result array, which it reads, and the program's result, which
    it writes. -/
abbrev tailBufs : Finset (DevRef τ sig) := {Proc.devRef .tc main_v3, Proc.devRef .tc main_v4}

/-- Holding them whole is holding the two. -/
theorem held_tail (c : Dev nD) (W : Valuation τ sig (Elt F)) :
    (StableHlo.held (c.tc : Thread nD τ) tailBufs W : sProp 𝕄)
      = iprop((((c : Thread nD τ).loc main_v3) ↦{fullShare} W (Proc.devRef .tc main_v3))
          ∗ (((c : Thread nD τ).loc main_v4) ↦{fullShare} W (Proc.devRef .tc main_v4))) := by
  unfold StableHlo.held
  exact Idealize.SL.BI.bigSep_eq_bigSepL_of_eq [Proc.devRef .tc main_v3, Proc.devRef .tc main_v4] (by decide) (by decide) _

/-- The host operation after the call, run from the call's exit: it reads the result array out of the windows' arrays
    and writes the program's result, a buffer that bypassed the call. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Vend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcs (F := F)) defs₀) (Variants.lift Variants.none) (c.tc : Thread nD τ) none) Set.univ
          (Pipeline.chain [StableHlo.seq hostOps1]) Q' := by
  unfold Dat.arrays
  rw [bigSep_W0, unscopedRest0_eq, unscopedRest0_eq]
  simp only [View.set_whole]
  rw [show (dats m 0 c).share 7 = fullShare from rfl,
    Vend_keep m c main_arg0 (by decide), Vend_keep m c main_arg1 (by decide), Vend_keep m c main_arg2 (by decide),
    Vexit_keep m c main_arg0 (by decide), Vexit_keep m c main_arg1 (by decide), Vexit_keep m c main_arg2 (by decide)]
  iintro ⟨Hk, Hb, ⟨A0, A1, A2, A3, A4, A5, A6, A7⟩, ⟨R0, R1, R2, R4⟩⟩
  simp only [Pipeline.chain_cons, Pipeline.chain_nil]
  iapply (StableHlo.wp_seq (Variants.lift Variants.none) none Set.univ c tailBufs _ hostOps1
    (fun op hop => by
      simp only [hostOps1, List.mem_cons, List.mem_nil_iff, or_false] at hop
      rw [hop]; exact Finset.Subset.refl _)
    (fun op hop => (List.forall_iff_forall_mem.mp hostOps1_fresh) op hop) (Vexit m c)) $$ [Hb A7 R4]
  · isplitl [Hb]; · iexact Hb
    rw [held_tail, Vexit_out, Vexit_keep m c main_v4 (by decide)]
    isplitl [A7]; · iexact A7
    iexact R4
  iintro ⟨Hb, Hh⟩
  ihave Hh2 := (show (StableHlo.held (c.tc : Thread nD τ) tailBufs (StableHlo.after hostOps1 (Vexit m c)) : sProp 𝕄)
      ⊢ iprop((((c : Thread nD τ).loc main_v3) ↦{fullShare} outArr m c)
          ∗ (((c : Thread nD τ).loc main_v4) ↦{fullShare} Vend m c (Proc.devRef .tc main_v4))) from by
    rw [held_tail, show StableHlo.after hostOps1 (Vexit m c) = Vend m c from rfl, Vend_keep m c main_v3 (by decide), Vexit_out]) $$ Hh
  icases Hh2 with ⟨A7, R4⟩
  rw [wp_pure]
  try imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R0]; · iexact R0
  isplitl [R1]; · iexact R1
  isplitl [R2]; · iexact R2
  iexact R4

set_option backward.isDefEq.respectTransparency.types false in
/-- Every weakly fair execution of @main terminates; at the end every window's array holds what the write-backs made
    of it and every buffer that bypassed the call what the last host operation leaves. -/
theorem run_main : θ_run defs (onTc (τ := τ) (main (F := F))) (s₀ m ρ)
    (fun r => ∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c (Proc.devRef .tc b)) := by
  classical
  exact Pipeline.θ_run_region_pf_tail (pcs (F := F)) adm (dats m) () cellOf_inj (0 : Fin 1) winFacts₀0 (Pipeline.OwnSemFacts.none spec0)
    (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin pcs adm) cellOf_inj) (Pipeline.launchToks (Pipeline.pin pcs adm) cellOf_inj))
    (hu₀ := by
      iintro Hu; imodintro
      isplitl [Hu]; · iapply (show (ownU _ : sProp 𝕄) ⊢ BI.own (emb₁ (initOf (Pipeline.cells (Pipeline.pin pcs adm) cellOf_inj) (Pipeline.launchToks (Pipeline.pin pcs adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_split m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run m c Q')
    (QY := fun c s => ∀ b ∈ Pipeline.restRefs sig spec0, s.mem ((c.tc : Thread nD τ).loc b) = Vend m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vend m c (Proc.devRef .tc b)) s')
      isplitl [HU] <;> iassumption)
    (hQ := fun s h c => ⟨(h c).1, (h c).2.2⟩)

end Cert.Kernel.Hand

end
-- ==== Proof.K.Frame.lean ====
/-
  The frame of the word-level program, and its result as a function of the result array.

  The three argument arrays bypass the kernel call; neither the host operations before it nor the one after it write
  them, so they end as launched. The program's result is what the last host operation writes: the result array's five
  streams laid end to end.
-/
import proofs.«118236_g6957847019598_cont_9to1c4b_83_9_alg».proof.Proof.K.Launch

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- A buffer none of the three host operations before the call writes is found by the call as launched. -/
theorem V_unwritten (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append, List.nil_append, List.Forall,
      StableHlo.unary_writes, StableHlo.reshape_writes, Finset.mem_singleton]
    exact ⟨StableHlo.devRef_ne_of_ne h0, StableHlo.devRef_ne_of_ne h1, StableHlo.devRef_ne_of_ne h2⟩))

/-- An argument array ends as launched: it bypasses the call and no host operation writes it. -/
theorem Vend_arg0 (c : Dev nD) : Vend m c (Proc.devRef .tc main_arg0) = m ((c : Thread nD τ).loc main_arg0) :=
  (Vend_keep m c main_arg0 (by decide)).trans ((Vexit_keep m c main_arg0 (by decide)).trans (V_unwritten m c main_arg0 (by decide) (by decide) (by decide)))
theorem Vend_arg1 (c : Dev nD) : Vend m c (Proc.devRef .tc main_arg1) = m ((c : Thread nD τ).loc main_arg1) :=
  (Vend_keep m c main_arg1 (by decide)).trans ((Vexit_keep m c main_arg1 (by decide)).trans (V_unwritten m c main_arg1 (by decide) (by decide) (by decide)))
theorem Vend_arg2 (c : Dev nD) : Vend m c (Proc.devRef .tc main_arg2) = m ((c : Thread nD τ).loc main_arg2) :=
  (Vend_keep m c main_arg2 (by decide)).trans ((Vexit_keep m c main_arg2 (by decide)).trans (V_unwritten m c main_arg2 (by decide) (by decide) (by decide)))

/-- The program's result is the result array's streams laid end to end. -/
theorem Vend_result (c : Dev nD) :
    Vend m c (Proc.devRef .tc main_v4) = shapeCast S10000x128 (outArr m c) shapeCasts_S5x2000x128_S10000x128 := by
  show StableHlo.after hostOps1 (Vexit m c) _ = _
  simp only [hostOps1, StableHlo.after_cons, StableHlo.after_nil]
  rw [StableHlo.reshape_result, Vexit_out]
  rfl

/-- The run, read at the program's result and its arguments. -/
theorem run_result : θ_run defs (onTc (τ := τ) (main (F := F))) ⟨m, fun _ => 0, ρ⟩ (fun r => ∀ c : Dev nD,
      r.2.mem ((c.tc : Thread nD τ).loc main_v4) = shapeCast S10000x128 ((dats m 0 c).arrAt 7 cfg0.N) shapeCasts_S5x2000x128_S10000x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v4 (Pipeline.mem_restRefs_of main_v4 (by decide) (by decide))).trans (Vend_result m c),
       ((h c).2 main_arg0 (Pipeline.mem_restRefs_of main_arg0 (by decide) (by decide))).trans (Vend_arg0 m c),
       ((h c).2 main_arg1 (Pipeline.mem_restRefs_of main_arg1 (by decide) (by decide))).trans (Vend_arg1 m c),
       ((h c).2 main_arg2 (Pipeline.mem_restRefs_of main_arg2 (by decide) (by decide))).trans (Vend_arg2 m c)⟩)
    (run_main m ρ)

/-- THE FRAME: every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.Kernel.Hand

end
-- ==== Proof.KI.Body.lean ====
/-
  The kernel body of the idealized program, run once on whole staging buffers.

  The body reads the weight block and the bias row, and for each of the five node streams j loads that stream's block
  of 200 nodes × 32 neighbours × 128 features, multiplies the 6400 rows by the transposed weights, takes for every node
  the maximum over its 32 neighbours, adds the bias row, and stores the 200 × 128 result as slab j of the output
  buffer. The five slabs tile the output buffer, so what the buffer holds afterwards does not depend on what it held
  before: it is the five stored values laid side by side (`left7`). The loads of the output buffer the body also makes
  are dead.
-/
import proofs.«118236_g6957847019598_cont_9to1c4b_83_9_alg».proof.Proof.Gen.KernelIdeal.Launch
import proofs.«118236_g6957847019598_cont_9to1c4b_83_9_alg».proof.Proof.Gen.KernelIdeal.Skeleton
import proofs.«118236_g6957847019598_cont_9to1c4b_83_9_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five slabs of the output buffer -/

/-- Slab `j` of the output buffer: row `j` of the leading axis, all 200 nodes, all 128 columns. -/
abbrev slab0 : Rect S5x200x128 := Rect.unit (s := S5x200x128) ![0, 0, 0] S1x200x128.size inb_S5x200x128_S1x200x128_0_0_0
abbrev slab1 : Rect S5x200x128 := Rect.unit (s := S5x200x128) ![1, 0, 0] S1x200x128.size inb_S5x200x128_S1x200x128_1_0_0
abbrev slab2 : Rect S5x200x128 := Rect.unit (s := S5x200x128) ![2, 0, 0] S1x200x128.size inb_S5x200x128_S1x200x128_2_0_0
abbrev slab3 : Rect S5x200x128 := Rect.unit (s := S5x200x128) ![3, 0, 0] S1x200x128.size inb_S5x200x128_S1x200x128_3_0_0
abbrev slab4 : Rect S5x200x128 := Rect.unit (s := S5x200x128) ![4, 0, 0] S1x200x128.size inb_S5x200x128_S1x200x128_4_0_0

/-- The whole of a stream's staged block. -/
abbrev wholeX : Rect S1x200x32x128 := Rect.unit (s := S1x200x32x128) ![0, 0, 0, 0] S1x200x32x128.size inb_S1x200x32x128_S1x200x32x128_0_0_0_0
/-- The whole of the weight block and of the bias row. -/
abbrev wholeW : Rect S128x128 := Rect.unit (s := S128x128) ![0, 0] S128x128.size inb_S128x128_S128x128_0_0
abbrev wholeB : Rect S1x128 := Rect.unit (s := S1x128) ![0, 0] S1x128.size inb_S1x128_S1x128_0_0

/-- What the body leaves in the output buffer, from the five stream blocks `x0 … x4`, the weight block `w` and the bias
    row `b`: its five stores as pieces, the last store first. -/
def left7 (x0 x1 x2 x3 x4 : Vec F S1x200x32x128 .f32) (w : Vec F S128x128 .f32) (b : Vec F S1x128 .f32) : Vec F S5x200x128 .f32 :=
  View.canon [⟨slab4, k0_pay8 (k0_pay1 (View.ld w wholeW)) (k0_pay2 (View.ld b wholeB)) (View.ld x4 wholeX)⟩,
    ⟨slab3, k0_pay7 (k0_pay1 (View.ld w wholeW)) (k0_pay2 (View.ld b wholeB)) (View.ld x3 wholeX)⟩,
    ⟨slab2, k0_pay6 (k0_pay1 (View.ld w wholeW)) (k0_pay2 (View.ld b wholeB)) (k0_pay5 (View.ld x2 wholeX))⟩,
    ⟨slab1, k0_pay4 (View.ld w wholeW) (View.ld b wholeB) (View.ld x1 wholeX)⟩,
    ⟨slab0, k0_pay3 (View.ld w wholeW) (View.ld b wholeB) (View.ld x0 wholeX)⟩]

/-- The five slabs tile the buffer, so every element of it lies in one of them. -/
theorem slabs_cover (p4 p3 p2 p1 p0 : Vec F S1x200x128 .f32) (y : S5x200x128.Idx) :
    ∃ pc ∈ ([⟨slab4, p4⟩, ⟨slab3, p3⟩, ⟨slab2, p2⟩, ⟨slab1, p1⟩, ⟨slab0, p0⟩] : List (View.Piece (Elt F) S5x200x128 .f32)), y ∈ pc.1.set :=
  View.cover_of_tiled [⟨slab4, p4⟩, ⟨slab3, p3⟩, ⟨slab2, p2⟩, ⟨slab1, p1⟩, ⟨slab0, p0⟩] S1x200x128.size (by rfl) y

/-! ## The body's triple -/

set_option maxHeartbeats 4000000 in
/-- The body on whole staging buffers — the seven inputs' at contents `x0 … x4`, `w`, `b`, the output's at anything — runs
    to its end holding the inputs' as they were and the output's at `left7` of them. -/
theorem body_run (c : Dev nD) (E : Set ℕ) (i : grid0.Coords)
    (arg1 : Memref sig .tc .vmem S1x200x32x128 .f32) (harg1 : arg1.IsWhole) (arg2 : Memref sig .tc .vmem S1x200x32x128 .f32) (harg2 : arg2.IsWhole)
    (arg3 : Memref sig .tc .vmem S1x200x32x128 .f32) (harg3 : arg3.IsWhole) (arg4 : Memref sig .tc .vmem S1x200x32x128 .f32) (harg4 : arg4.IsWhole)
    (arg5 : Memref sig .tc .vmem S1x200x32x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5x200x128 .f32) (harg8 : arg8.IsWhole)
    (x0 x1 x2 x3 x4 : Vec F S1x200x32x128 .f32) (w : Vec F S128x128 .f32) (b : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare w
        ∗ owns (c : Thread nD τ) arg7 fullShare b ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare w
            ∗ owns (c : Thread nD τ) arg7 fullShare b ∗ owns (c : Thread nD τ) arg8 fullShare (left7 x0 x1 x2 x3 x4 w b)) -∗ K ⟨⟩))
      ⊢ wp frame (wpE (defs₀ (F := F)) Variants.none c none) E
          (cc0__agg_kernel i arg1 harg1 arg2 harg2 arg3 harg3 arg4 harg4 arg5 harg5 arg6 harg6 arg7 harg7 arg8 harg8) K := by
  simp only [cc0__agg_kernel_eq_skeleton]; unfold cc0__agg_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (slabs_cover _ _ _ _ _)

end Cert.KernelIdeal.Hand

end
-- ==== Proof.KI.Data.lean ====
/-
  The proof data of the kernel call, and the body obligation.

  When the call is entered the host has already cut the neighbour array into five streams, transposed the weights and
  made the bias a one-row matrix (`V`). At grid point t window j ≤ 4 stages block (j, t, 0, 0) of the streamed array —
  stream j's nodes 200·t … 200·t + 199 —, windows 5 and 6 the whole weight and bias matrices, and window 7 receives
  block (0, t, 0) of the result: all five streams' rows 200·t … 200·t + 199. The five windows on the streamed array only
  read it, so each holds one of five disjoint parts of the full share of it (`qshare`). After the body each input's
  buffer still holds its block and the output's holds `left7` of the seven input blocks; nothing is carried between
  points.
-/
import proofs.«118236_g6957847019598_cont_9to1c4b_83_9_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffer contents when the call is entered: after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three host operations, the call, and the one host operation after it: it reduces to the call
    continued by that last operation, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- How the full share of the streamed array is dealt among the five windows that read it: five disjoint parts. The
    other windows hold their own arrays whole. -/
def qshare : Fin 8 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | ⟨5, _⟩ => fullShare
  | ⟨6, _⟩ => fullShare
  | ⟨_ + 7, _⟩ => fullShare

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 (iblk m c 0 t) (iblk m c 1 t) (iblk m c 2 t) (iblk m c 3 t) (iblk m c 4 t) (iblk m c 5 t) (iblk m c 6 t)
  Φ _ := Pipeline.ΦA spec0 c
  q := qshare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) :
    (dats m 0 c).after 7 t = left7 (iblk m c 0 t) (iblk m c 1 t) (iblk m c 2 t) (iblk m c 3 t) (iblk m c 4 t) (iblk m c 5 t) (iblk m c 6 t) := by
  dsimp only [dats]

/-! ## Each input's staging buffer holds its block at every point, fetched there or not -/

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run of the idealized program: the launch of its one kernel call and the host operation after it.

  Five windows of the call read ONE array (the streamed neighbour array), so the launch is told how that array's full
  share is dealt among them (`arrays_split`: halved four times, each window one part); the weight, bias and result
  arrays each belong to one window, whole. After the call the last host operation lays the result's five streams end to
  end into the program's result; it reads the result array, which the call hands back whole, and writes a buffer that
  bypassed the call (`tail_run`). The run ends with every window's array at what the write-backs made of it and every
  other buffer at what that last operation leaves.
-/
import proofs.«118236_g6957847019598_cont_9to1c4b_83_9_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's pipelines as pipelines with (no) prefetched tables, and their (empty) admissible tables. -/
abbrev pcs : Fin 1 → Pipeline.PCfg sig Λ₀ (Elt F) := fun q => (cfgs q).toPCfg (Val := Elt F)
abbrev adm : (p : Fin 1) → (pcs (F := F) p).Adm := fun q => (cfgs q).toPCfg_adm

/-- The result array when the call returns. -/
abbrev outArr (c : Dev nD) : (main_v3 : Ref sig .tc).ty.Contents (Elt F) := (dats m 0 c).arrAt 7 cfg0.N

/-- Core `c`'s buffers when the call returns: the result array at what the call wrote, everything else as it was
    entered (the inputs are only read). -/
abbrev Vexit (c : Dev nD) : Valuation τ sig (Elt F) := (StableHlo.nullary main_v3 (outArr m c)).result (V0 m c)

/-- And at the end of @main: after the one host operation that follows the call. -/
abbrev Vend (c : Dev nD) : Valuation τ sig (Elt F) := StableHlo.after hostOps1 (Vexit m c)

/-- The distinct buffers behind the eight windows' arrays are four: the streamed array, the transposed weights, the bias
    row and the result. -/
theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact Idealize.SL.BI.bigSep_eq_bigSepL_of_eq [main_v0, main_v1, main_v2, main_v3] (by decide) (by decide) _

/-- The full share of the streamed array, held whole, is the five windows' parts of it; the other three arrays go to
    their one window whole. -/
theorem arrays_split (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [View.set_whole]
  rw [show (dats m 0 c).share 0 = fullShare.left from rfl, show (dats m 0 c).share 1 = fullShare.right.left from rfl,
    show (dats m 0 c).share 2 = fullShare.right.right.left from rfl, show (dats m 0 c).share 3 = fullShare.right.right.right.left from rfl,
    show (dats m 0 c).share 4 = fullShare.right.right.right.right from rfl, show (dats m 0 c).share 5 = fullShare from rfl,
    show (dats m 0 c).share 6 = fullShare from rfl, show (dats m 0 c).share 7 = fullShare from rfl]
  iintro ⟨H0, H1, H2, H3⟩
  ihave H0' := (pointsTo_share (PosShare.mem_left_op_right fullShare)).1 $$ H0
  icases H0' with ⟨Ha, H0⟩
  ihave H0' := (pointsTo_share (PosShare.mem_left_op_right fullShare.right)).1 $$ H0
  icases H0' with ⟨Hb, H0⟩
  ihave H0' := (pointsTo_share (PosShare.mem_left_op_right fullShare.right.right)).1 $$ H0
  icases H0' with ⟨Hc, H0⟩
  ihave H0' := (pointsTo_share (PosShare.mem_left_op_right fullShare.right.right.right)).1 $$ H0
  icases H0' with ⟨Hd, He⟩
  isplitl [Ha]; · iexact Ha
  isplitl [Hb]; · iexact Hb
  isplitl [Hc]; · iexact Hc
  isplitl [Hd]; · iexact Hd
  isplitl [He]; · iexact He
  isplitl [H1]; · iexact H1
  isplitl [H2]; · iexact H2
  iexact H3

/-! ## The host operation after the call -/

/-- At the call's exit the result array holds what the call wrote, -/
theorem Vexit_out (c : Dev nD) : Vexit m c (Proc.devRef .tc main_v3) = outArr m c :=
  StableHlo.nullary_result main_v3 _ _ _
/-- and every other buffer what it held when the call was entered. -/
theorem Vexit_keep (c : Dev nD) (r : Ref sig .tc) (h : r ≠ main_v3) : Vexit m c (Proc.devRef .tc r) = V m c r :=
  StableHlo.nullary_result_ne _ _ _ _ h
/-- The last host operation writes the program's result only. -/
theorem Vend_keep (c : Dev nD) (r : Ref sig .tc) (h : r ≠ main_v4) : Vend m c (Proc.devRef .tc r) = Vexit m c (Proc.devRef .tc r) := by
  show StableHlo.after hostOps1 (Vexit m c) _ = _
  simp only [hostOps1, StableHlo.after_cons, StableHlo.after_nil]
  exact StableHlo.reshape_result_ne _ _ _ _ _ _ _ h

/-- The two buffers the last host operation touches: the result array, which it reads, and the program's result, which
    it writes. -/
abbrev tailBufs : Finset (DevRef τ sig) := {Proc.devRef .tc main_v3, Proc.devRef .tc main_v4}

/-- Holding them whole is holding the two. -/
theorem held_tail (c : Dev nD) (W : Valuation τ sig (Elt F)) :
    (StableHlo.held (c.tc : Thread nD τ) tailBufs W : sProp 𝕄)
      = iprop((((c : Thread nD τ).loc main_v3) ↦{fullShare} W (Proc.devRef .tc main_v3))
          ∗ (((c : Thread nD τ).loc main_v4) ↦{fullShare} W (Proc.devRef .tc main_v4))) := by
  unfold StableHlo.held
  exact Idealize.SL.BI.bigSep_eq_bigSepL_of_eq [Proc.devRef .tc main_v3, Proc.devRef .tc main_v4] (by decide) (by decide) _

/-- The host operation after the call, run from the call's exit: it reads the result array out of the windows' arrays
    and writes the program's result, a buffer that bypassed the call. -/
theorem tail_run (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Vend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcs (F := F)) defs₀) (Variants.lift Variants.none) (c.tc : Thread nD τ) none) Set.univ
          (Pipeline.chain [StableHlo.seq hostOps1]) Q' := by
  unfold Dat.arrays
  rw [bigSep_W0, unscopedRest0_eq, unscopedRest0_eq]
  simp only [View.set_whole]
  rw [show (dats m 0 c).share 7 = fullShare from rfl,
    Vend_keep m c main_arg0 (by decide), Vend_keep m c main_arg1 (by decide), Vend_keep m c main_arg2 (by decide),
    Vexit_keep m c main_arg0 (by decide), Vexit_keep m c main_arg1 (by decide), Vexit_keep m c main_arg2 (by decide)]
  iintro ⟨Hk, Hb, ⟨A0, A1, A2, A3, A4, A5, A6, A7⟩, ⟨R0, R1, R2, R4⟩⟩
  simp only [Pipeline.chain_cons, Pipeline.chain_nil]
  iapply (StableHlo.wp_seq (Variants.lift Variants.none) none Set.univ c tailBufs _ hostOps1
    (fun op hop => by
      simp only [hostOps1, List.mem_cons, List.mem_nil_iff, or_false] at hop
      rw [hop]; exact Finset.Subset.refl _)
    (fun op hop => (List.forall_iff_forall_mem.mp hostOps1_fresh) op hop) (Vexit m c)) $$ [Hb A7 R4]
  · isplitl [Hb]; · iexact Hb
    rw [held_tail, Vexit_out, Vexit_keep m c main_v4 (by decide)]
    isplitl [A7]; · iexact A7
    iexact R4
  iintro ⟨Hb, Hh⟩
  ihave Hh2 := (show (StableHlo.held (c.tc : Thread nD τ) tailBufs (StableHlo.after hostOps1 (Vexit m c)) : sProp 𝕄)
      ⊢ iprop((((c : Thread nD τ).loc main_v3) ↦{fullShare} outArr m c)
          ∗ (((c : Thread nD τ).loc main_v4) ↦{fullShare} Vend m c (Proc.devRef .tc main_v4))) from by
    rw [held_tail, show StableHlo.after hostOps1 (Vexit m c) = Vend m c from rfl, Vend_keep m c main_v3 (by decide), Vexit_out]) $$ Hh
  icases Hh2 with ⟨A7, R4⟩
  rw [wp_pure]
  try imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R0]; · iexact R0
  isplitl [R1]; · iexact R1
  isplitl [R2]; · iexact R2
  iexact R4

set_option backward.isDefEq.respectTransparency.types false in
/-- Every weakly fair execution of @main terminates; at the end every window's array holds what the write-backs made
    of it and every buffer that bypassed the call what the last host operation leaves. -/
theorem run_main : θ_run defs (onTc (τ := τ) (main (F := F))) (s₀ m ρ)
    (fun r => ∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c (Proc.devRef .tc b)) := by
  classical
  exact Pipeline.θ_run_region_pf_tail (pcs (F := F)) adm (dats m) () cellOf_inj (0 : Fin 1) winFacts₀0 (Pipeline.OwnSemFacts.none spec0)
    (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells (Pipeline.pin pcs adm) cellOf_inj) (Pipeline.launchToks (Pipeline.pin pcs adm) cellOf_inj))
    (hu₀ := by
      iintro Hu; imodintro
      isplitl [Hu]; · iapply (show (ownU _ : sProp 𝕄) ⊢ BI.own (emb₁ (initOf (Pipeline.cells (Pipeline.pin pcs adm) cellOf_inj) (Pipeline.launchToks (Pipeline.pin pcs adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_split m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run m c Q')
    (QY := fun c s => ∀ b ∈ Pipeline.restRefs sig spec0, s.mem ((c.tc : Thread nD τ).loc b) = Vend m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vend m c (Proc.devRef .tc b)) s')
      isplitl [HU] <;> iassumption)
    (hQ := fun s h c => ⟨(h c).1, (h c).2.2⟩)

end Cert.KernelIdeal.Hand

end
-- ==== Proof.KI.Frame.lean ====
/-
  The frame of the idealized program, and its result as a function of the result array.

  The three argument arrays bypass the kernel call; neither the host operations before it nor the one after it write
  them, so they end as launched. The program's result is what the last host operation writes: the result array's five
  streams laid end to end.
-/
import proofs.«118236_g6957847019598_cont_9to1c4b_83_9_alg».proof.Proof.KI.Launch

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- A buffer none of the three host operations before the call writes is found by the call as launched. -/
theorem V_unwritten (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append, List.nil_append, List.Forall,
      StableHlo.unary_writes, StableHlo.reshape_writes, Finset.mem_singleton]
    exact ⟨StableHlo.devRef_ne_of_ne h0, StableHlo.devRef_ne_of_ne h1, StableHlo.devRef_ne_of_ne h2⟩))

/-- An argument array ends as launched: it bypasses the call and no host operation writes it. -/
theorem Vend_arg0 (c : Dev nD) : Vend m c (Proc.devRef .tc main_arg0) = m ((c : Thread nD τ).loc main_arg0) :=
  (Vend_keep m c main_arg0 (by decide)).trans ((Vexit_keep m c main_arg0 (by decide)).trans (V_unwritten m c main_arg0 (by decide) (by decide) (by decide)))
theorem Vend_arg1 (c : Dev nD) : Vend m c (Proc.devRef .tc main_arg1) = m ((c : Thread nD τ).loc main_arg1) :=
  (Vend_keep m c main_arg1 (by decide)).trans ((Vexit_keep m c main_arg1 (by decide)).trans (V_unwritten m c main_arg1 (by decide) (by decide) (by decide)))
theorem Vend_arg2 (c : Dev nD) : Vend m c (Proc.devRef .tc main_arg2) = m ((c : Thread nD τ).loc main_arg2) :=
  (Vend_keep m c main_arg2 (by decide)).trans ((Vexit_keep m c main_arg2 (by decide)).trans (V_unwritten m c main_arg2 (by decide) (by decide) (by decide)))

/-- The program's result is the result array's streams laid end to end. -/
theorem Vend_result (c : Dev nD) :
    Vend m c (Proc.devRef .tc main_v4) = shapeCast S10000x128 (outArr m c) shapeCasts_S5x2000x128_S10000x128 := by
  show StableHlo.after hostOps1 (Vexit m c) _ = _
  simp only [hostOps1, StableHlo.after_cons, StableHlo.after_nil]
  rw [StableHlo.reshape_result, Vexit_out]
  rfl

/-- The run, read at the program's result and its arguments. -/
theorem run_result : θ_run defs (onTc (τ := τ) (main (F := F))) ⟨m, fun _ => 0, ρ⟩ (fun r => ∀ c : Dev nD,
      r.2.mem ((c.tc : Thread nD τ).loc main_v4) = shapeCast S10000x128 ((dats m 0 c).arrAt 7 cfg0.N) shapeCasts_S5x2000x128_S10000x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v4 (Pipeline.mem_restRefs_of main_v4 (by decide) (by decide))).trans (Vend_result m c),
       ((h c).2 main_arg0 (Pipeline.mem_restRefs_of main_arg0 (by decide) (by decide))).trans (Vend_arg0 m c),
       ((h c).2 main_arg1 (Pipeline.mem_restRefs_of main_arg1 (by decide) (by decide))).trans (Vend_arg1 m c),
       ((h c).2 main_arg2 (Pipeline.mem_restRefs_of main_arg2 (by decide) (by decide))).trans (Vend_arg2 m c)⟩)
    (run_main m ρ)

/-- THE FRAME: every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.KernelIdeal.Hand

end
-- ==== Proof.KI.Layout.lean ====
/-
  The host operations around the kernel call, read at an index.

  Before the call the node axis of the neighbour array is cut into five contiguous streams of 2000 nodes (node
  s · 2000 + q is row q of stream s), the weight matrix is transposed and the bias vector becomes a one-row matrix; after
  the call the five streams of results are laid end to end again.
-/
import proofs.«118236_g6957847019598_cont_9to1c4b_83_9_alg».proof.KernelIdeal
import Idealize.ShloMosaic.Lib.Pipeline.Value
import Idealize.ShloMosaic.Lib.ValueIdx
import Idealize.ShloMosaic.Lib.ValueLayout

noncomputable section

namespace Cert.KernelIdeal.Hand

open Cert.KernelIdeal
open Idealize.ShloMosaic Idealize.ShloMosaic.ValueIdx

variable {α : Type}

/-- The node that is row `q` of stream `s`. -/
def node (s : Fin 5) (q : Fin 2000) : Fin 10000 := ⟨s.val * 2000 + q.val, by omega⟩

/-- Every node is a row of a stream. -/
theorem node_surj (n : Fin 10000) : ∃ (s : Fin 5) (q : Fin 2000), n = node s q := by
  -- s is the quotient and q the remainder of n by the stream length 2000
  have hn := n.isLt
  refine ⟨⟨n.val / 2000, by omega⟩, ⟨n.val % 2000, by omega⟩, Fin.ext ?_⟩
  show n.val = n.val / 2000 * 2000 + n.val % 2000
  omega

theorem streams_at (x : S10000x32x128.Idx → α) (h : S10000x32x128.ShapeCasts S5x2000x32x128)
    (s : Fin 5) (q : Fin 2000) (k : Fin 32) (d : Fin 128) :
    shapeCast S5x2000x32x128 x h (ix4 s q k d) = x (ix3 (node s q) k d) :=
  -- both indices sit at row-major position ((s · 2000 + q) · 32 + k) · 128 + d
  shapeCast_apply x h _ _ (by
    rw [Shape.rowMajor_val_three, Shape.rowMajor_val_four]
    show ((s.val * 2000 + q.val) * 32 + k.val) * 128 + d.val = ((s.val * 2000 + q.val) * 32 + k.val) * 128 + d.val
    rfl)

theorem transposed_at (w : S128x128.Idx → α) (h : S128x128.Transposes [1, 0] S128x128) (d o : Fin 128) :
    transpose S128x128 [1, 0] w h (ix2 d o) = w (ix2 o d) :=
  -- result axis 0 is source axis 1 and result axis 1 is source axis 0
  transpose_apply _ w h _ _ fun c => match c with | ⟨0, _⟩ => rfl | ⟨1, _⟩ => rfl

theorem biasRow_at (b : S128.Idx → α) (h : S128.ShapeCasts S1x128) (o : Fin 128) :
    shapeCast S1x128 b h (ix2 (0 : Fin 1) o) = b (ix1 o) :=
  -- the one row of the matrix is the vector itself
  shapeCast_a_1a_apply b h 0 o

theorem unstream_at (A : S5x2000x128.Idx → α) (h : S5x2000x128.ShapeCasts S10000x128) (s : Fin 5) (q : Fin 2000) (o : Fin 128) :
    shapeCast S10000x128 A h (ix2 (node s q) o) = A (ix3 s q o) :=
  -- both indices sit at row-major position (s · 2000 + q) · 128 + o
  shapeCast_apply A h _ _ (by
    rw [Shape.rowMajor_val_three, Shape.rowMajor_val_two]
    show (s.val * 2000 + q.val) * 128 + o.val = (s.val * 2000 + q.val) * 128 + o.val
    rfl)

end Cert.KernelIdeal.Hand

end
-- ==== Proof.KI.Blocks.lean ====
/-
  The windows' blocks, read at an index.

  At grid point t window j ≤ 4 stages block (j, t, 0, 0) of the streamed array: rows 200·t … 200·t + 199 of stream j, that
  is nodes j·2000 + 200·t + r of the neighbour array. Windows 5 and 6 stage the whole transposed weight matrix and the
  whole bias row at every point. Window 7's block (0, t, 0) of the result is all five streams' rows 200·t … 200·t + 199.
-/
import proofs.«118236_g6957847019598_cont_9to1c4b_83_9_alg».proof.Proof.KI.Data
import proofs.«118236_g6957847019598_cont_9to1c4b_83_9_alg».proof.Proof.KI.Layout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- Row `r` of the block at grid point `t` is row 200·t + r of its stream. -/
def rowOf (t : Fin cfg0.N) (r : Fin 200) : Fin 2000 :=
  ⟨t.val * 200 + r.val, by have h := N_0; have ht : t.val < grid0.N := t.isLt; have hr := r.isLt; omega⟩

/-! ## What the host operations before the call leave in the windows' arrays -/

theorem V_streams (c : Dev nD) :
    V m c main_v0 = shapeCast S5x2000x32x128 (m ((c : Thread nD τ).loc main_arg0)) shapeCasts_S10000x32x128_S5x2000x32x128 := by
  show StableHlo.after hostOps0 (fun b => m (c, b)) (Proc.devRef .tc main_v0) = _
  after_results
  rfl

theorem V_weights (c : Dev nD) :
    V m c main_v1 = transpose S128x128 [1, 0] (m ((c : Thread nD τ).loc main_arg1)) transposes_S128x128_S128x128_1_0 := by
  show StableHlo.after hostOps0 (fun b => m (c, b)) (Proc.devRef .tc main_v1) = _
  after_results

theorem V_bias (c : Dev nD) :
    V m c main_v2 = shapeCast S1x128 (m ((c : Thread nD τ).loc main_arg2)) shapeCasts_S128_S1x128 := by
  show StableHlo.after hostOps0 (fun b => m (c, b)) (Proc.devRef .tc main_v2) = _
  after_results
  rfl

/-- No host operation before the call writes an argument array. -/
theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results

/-! ## The input blocks at an index -/

/-- The printed index maps, decided over the grid: window j ≤ 4 takes block (j, t, 0, 0) of the streamed array, windows 5
    and 6 block (0, 0) of theirs, window 7 block (0, t, 0) of the result. -/
private theorem idx0 : ∀ t : Fin cfg0.N, win0_0.index t (0 : Fin 4) = 0 ∧ win0_0.index t (1 : Fin 4) = t.val
    ∧ win0_0.index t (2 : Fin 4) = 0 ∧ win0_0.index t (3 : Fin 4) = 0 :=
  (by decide +kernel : ∀ t : Fin grid0.N, _)
private theorem idx1 : ∀ t : Fin cfg0.N, win0_1.index t (0 : Fin 4) = 1 ∧ win0_1.index t (1 : Fin 4) = t.val
    ∧ win0_1.index t (2 : Fin 4) = 0 ∧ win0_1.index t (3 : Fin 4) = 0 :=
  (by decide +kernel : ∀ t : Fin grid0.N, _)
private theorem idx2 : ∀ t : Fin cfg0.N, win0_2.index t (0 : Fin 4) = 2 ∧ win0_2.index t (1 : Fin 4) = t.val
    ∧ win0_2.index t (2 : Fin 4) = 0 ∧ win0_2.index t (3 : Fin 4) = 0 :=
  (by decide +kernel : ∀ t : Fin grid0.N, _)
private theorem idx3 : ∀ t : Fin cfg0.N, win0_3.index t (0 : Fin 4) = 3 ∧ win0_3.index t (1 : Fin 4) = t.val
    ∧ win0_3.index t (2 : Fin 4) = 0 ∧ win0_3.index t (3 : Fin 4) = 0 :=
  (by decide +kernel : ∀ t : Fin grid0.N, _)
private theorem idx4 : ∀ t : Fin cfg0.N, win0_4.index t (0 : Fin 4) = 4 ∧ win0_4.index t (1 : Fin 4) = t.val
    ∧ win0_4.index t (2 : Fin 4) = 0 ∧ win0_4.index t (3 : Fin 4) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx7 : ∀ t : Fin cfg0.N, win0_7.index t (0 : Fin 3) = 0 ∧ win0_7.index t (1 : Fin 3) = t.val ∧ win0_7.index t (2 : Fin 3) = 0 :=
  (by decide +kernel : ∀ t : Fin grid0.N, _)

theorem xblock0_at (c : Dev nD) (t : Fin cfg0.N) (r : Fin 200) (k : Fin 32) (d : Fin 128) :
    iblk m c 0 t (ix4 (0 : Fin 1) r k d) = m ((c : Thread nD τ).loc main_arg0) (ix3 (node 0 (rowOf t r)) k d) := by
  show V m c main_v0 (((cfg0.win 0).blk t).view.emb (ix4 (0 : Fin 1) r k d)) = _
  have e : ((cfg0.win 0).blk t).view.emb (ix4 (0 : Fin 1) r k d) = ix4 (0 : Fin 5) (rowOf t r) k d := by
    obtain ⟨e0, e1, e2, e3⟩ := idx0 t
    funext a; apply Fin.ext
    match a with
    | ⟨0, _⟩ => show win0_0.index t (0 : Fin 4) * 1 + 1 * (0 : Fin 1).val = 0; rw [e0]; rfl
    | ⟨1, _⟩ => show win0_0.index t (1 : Fin 4) * 200 + 1 * r.val = t.val * 200 + r.val; omega
    | ⟨2, _⟩ => show win0_0.index t (2 : Fin 4) * 32 + 1 * k.val = k.val; omega
    | ⟨3, _⟩ => show win0_0.index t (3 : Fin 4) * 128 + 1 * d.val = d.val; omega
  rw [e, V_streams]
  exact streams_at _ _ _ _ _ _
theorem xblock1_at (c : Dev nD) (t : Fin cfg0.N) (r : Fin 200) (k : Fin 32) (d : Fin 128) :
    iblk m c 1 t (ix4 (0 : Fin 1) r k d) = m ((c : Thread nD τ).loc main_arg0) (ix3 (node 1 (rowOf t r)) k d) := by
  show V m c main_v0 (((cfg0.win 1).blk t).view.emb (ix4 (0 : Fin 1) r k d)) = _
  have e : ((cfg0.win 1).blk t).view.emb (ix4 (0 : Fin 1) r k d) = ix4 (1 : Fin 5) (rowOf t r) k d := by
    obtain ⟨e0, e1, e2, e3⟩ := idx1 t
    funext a; apply Fin.ext
    match a with
    | ⟨0, _⟩ => show win0_1.index t (0 : Fin 4) * 1 + 1 * (0 : Fin 1).val = 1; rw [e0]; rfl
    | ⟨1, _⟩ => show win0_1.index t (1 : Fin 4) * 200 + 1 * r.val = t.val * 200 + r.val; omega
    | ⟨2, _⟩ => show win0_1.index t (2 : Fin 4) * 32 + 1 * k.val = k.val; omega
    | ⟨3, _⟩ => show win0_1.index t (3 : Fin 4) * 128 + 1 * d.val = d.val; omega
  rw [e, V_streams]
  exact streams_at _ _ _ _ _ _
theorem xblock2_at (c : Dev nD) (t : Fin cfg0.N) (r : Fin 200) (k : Fin 32) (d : Fin 128) :
    iblk m c 2 t (ix4 (0 : Fin 1) r k d) = m ((c : Thread nD τ).loc main_arg0) (ix3 (node 2 (rowOf t r)) k d) := by
  show V m c main_v0 (((cfg0.win 2).blk t).view.emb (ix4 (0 : Fin 1) r k d)) = _
  have e : ((cfg0.win 2).blk t).view.emb (ix4 (0 : Fin 1) r k d) = ix4 (2 : Fin 5) (rowOf t r) k d := by
    obtain ⟨e0, e1, e2, e3⟩ := idx2 t
    funext a; apply Fin.ext
    match a with
    | ⟨0, _⟩ => show win0_2.index t (0 : Fin 4) * 1 + 1 * (0 : Fin 1).val = 2; rw [e0]; rfl
    | ⟨1, _⟩ => show win0_2.index t (1 : Fin 4) * 200 + 1 * r.val = t.val * 200 + r.val; omega
    | ⟨2, _⟩ => show win0_2.index t (2 : Fin 4) * 32 + 1 * k.val = k.val; omega
    | ⟨3, _⟩ => show win0_2.index t (3 : Fin 4) * 128 + 1 * d.val = d.val; omega
  rw [e, V_streams]
  exact streams_at _ _ _ _ _ _
theorem xblock3_at (c : Dev nD) (t : Fin cfg0.N) (r : Fin 200) (k : Fin 32) (d : Fin 128) :
    iblk m c 3 t (ix4 (0 : Fin 1) r k d) = m ((c : Thread nD τ).loc main_arg0) (ix3 (node 3 (rowOf t r)) k d) := by
  show V m c main_v0 (((cfg0.win 3).blk t).view.emb (ix4 (0 : Fin 1) r k d)) = _
  have e : ((cfg0.win 3).blk t).view.emb (ix4 (0 : Fin 1) r k d) = ix4 (3 : Fin 5) (rowOf t r) k d := by
    obtain ⟨e0, e1, e2, e3⟩ := idx3 t
    funext a; apply Fin.ext
    match a with
    | ⟨0, _⟩ => show win0_3.index t (0 : Fin 4) * 1 + 1 * (0 : Fin 1).val = 3; rw [e0]; rfl
    | ⟨1, _⟩ => show win0_3.index t (1 : Fin 4) * 200 + 1 * r.val = t.val * 200 + r.val; omega
    | ⟨2, _⟩ => show win0_3.index t (2 : Fin 4) * 32 + 1 * k.val = k.val; omega
    | ⟨3, _⟩ => show win0_3.index t (3 : Fin 4) * 128 + 1 * d.val = d.val; omega
  rw [e, V_streams]
  exact streams_at _ _ _ _ _ _
theorem xblock4_at (c : Dev nD) (t : Fin cfg0.N) (r : Fin 200) (k : Fin 32) (d : Fin 128) :
    iblk m c 4 t (ix4 (0 : Fin 1) r k d) = m ((c : Thread nD τ).loc main_arg0) (ix3 (node 4 (rowOf t r)) k d) := by
  show V m c main_v0 (((cfg0.win 4).blk t).view.emb (ix4 (0 : Fin 1) r k d)) = _
  have e : ((cfg0.win 4).blk t).view.emb (ix4 (0 : Fin 1) r k d) = ix4 (4 : Fin 5) (rowOf t r) k d := by
    obtain ⟨e0, e1, e2, e3⟩ := idx4 t
    funext a; apply Fin.ext
    match a with
    | ⟨0, _⟩ => show win0_4.index t (0 : Fin 4) * 1 + 1 * (0 : Fin 1).val = 4; rw [e0]; rfl
    | ⟨1, _⟩ => show win0_4.index t (1 : Fin 4) * 200 + 1 * r.val = t.val * 200 + r.val; omega
    | ⟨2, _⟩ => show win0_4.index t (2 : Fin 4) * 32 + 1 * k.val = k.val; omega
    | ⟨3, _⟩ => show win0_4.index t (3 : Fin 4) * 128 + 1 * d.val = d.val; omega
  rw [e, V_streams]
  exact streams_at _ _ _ _ _ _

theorem wblock_at (c : Dev nD) (t : Fin cfg0.N) (d o : Fin 128) :
    iblk m c 5 t (ix2 d o) = m ((c : Thread nD τ).loc main_arg1) (ix2 o d) := by
  show V m c main_v1 (((cfg0.win 5).blk t).view.emb (ix2 d o)) = _
  have e : ((cfg0.win 5).blk t).view.emb (ix2 d o) = ix2 d o := by
    obtain ⟨e0, e1⟩ := idx5 t
    funext a; apply Fin.ext
    match a with
    | ⟨0, _⟩ => show win0_5.index t (0 : Fin 2) * 128 + 1 * d.val = d.val; omega
    | ⟨1, _⟩ => show win0_5.index t (1 : Fin 2) * 128 + 1 * o.val = o.val; omega
  rw [e, V_weights]
  exact transposed_at _ _ _ _

theorem bblock_at (c : Dev nD) (t : Fin cfg0.N) (o : Fin 128) :
    iblk m c 6 t (ix2 (0 : Fin 1) o) = m ((c : Thread nD τ).loc main_arg2) (ix1 o) := by
  show V m c main_v2 (((cfg0.win 6).blk t).view.emb (ix2 (0 : Fin 1) o)) = _
  have e : ((cfg0.win 6).blk t).view.emb (ix2 (0 : Fin 1) o) = ix2 (0 : Fin 1) o := by
    obtain ⟨e0, e1⟩ := idx6 t
    funext a; apply Fin.ext
    match a with
    | ⟨0, _⟩ => show win0_6.index t (0 : Fin 2) * 1 + 1 * (0 : Fin 1).val = (0 : Fin 1).val; rw [e0]; rfl
    | ⟨1, _⟩ => show win0_6.index t (1 : Fin 2) * 128 + 1 * o.val = o.val; omega
  rw [e, V_bias]
  exact biasRow_at _ _ _

/-! ## Where the output block sits in the result array -/

/-- Element (s, r, o) of the output block at point `t` is element (s, 200·t + r, o) of the result array. -/
theorem oblock_emb (t : Fin cfg0.N) (s : Fin 5) (r : Fin 200) (o : Fin 128) :
    ((cfg0.win 7).blk t).view.emb (ix3 s r o) = ix3 s (rowOf t r) o := by
  obtain ⟨e0, e1, e2⟩ := idx7 t
  funext a; apply Fin.ext
  match a with
  | ⟨0, _⟩ => show win0_7.index t (0 : Fin 3) * 5 + 1 * s.val = s.val; omega
  | ⟨1, _⟩ => show win0_7.index t (1 : Fin 3) * 200 + 1 * r.val = t.val * 200 + r.val; omega
  | ⟨2, _⟩ => show win0_7.index t (2 : Fin 3) * 128 + 1 * o.val = o.val; omega

/-- An element of the result array lies in point `t`'s block exactly when its row does. -/
theorem oblock_mem (t : Fin cfg0.N) (i : S5x2000x128.Idx) :
    i ∈ ((cfg0.win 7).blk t).view.set ↔ t.val * 200 ≤ (i 1).val ∧ (i 1).val < t.val * 200 + 200 := by
  show i ∈ ((View.whole main_v3).slice (win0_7.rect t)).set ↔ _
  rw [View.set_slice_whole, Rect.mem_set_unit]
  obtain ⟨e0, e1, e2⟩ := idx7 t
  have h0 : (i 0).val < 5 := (i 0).isLt
  have h2 : (i 2).val < 128 := (i 2).isLt
  constructor
  · intro h
    have b1 : win0_7.index t (1 : Fin 3) * 200 ≤ (i 1).val ∧ (i 1).val < win0_7.index t (1 : Fin 3) * 200 + 200 := h 1
    omega
  · intro h a
    match a with
    | ⟨0, _⟩ => show win0_7.index t (0 : Fin 3) * 5 ≤ (i 0).val ∧ (i 0).val < win0_7.index t (0 : Fin 3) * 5 + 5; omega
    | ⟨1, _⟩ => show win0_7.index t (1 : Fin 3) * 200 ≤ (i 1).val ∧ (i 1).val < win0_7.index t (1 : Fin 3) * 200 + 200; omega
    | ⟨2, _⟩ => show win0_7.index t (2 : Fin 3) * 128 ≤ (i 2).val ∧ (i 2).val < win0_7.index t (2 : Fin 3) * 128 + 128; omega

end Cert.KernelIdeal.Hand

end
-- ==== Proof.Spec.lean ====
/-
  The specification both programs compute, on the extended reals.

  For node n and output column o: each neighbour k of the node has the linear response
  Σ_d x[n, k, d] · W[o, d]; the pooled value is the maximum of the responses over the 32 neighbours, taken from −∞,
  plus the bias b[o]. The reference adds the bias to every response before it takes the maximum; since adding a fixed
  extended real is monotone and −∞ + c = −∞, the two orders agree (`fold_max_add`) — for every c, infinite ones included,
  so no finiteness is needed.
-/
import Idealize.ShloMosaic.Lib.ValueIdx
import Idealize.ShloMosaic.PureOps.Ideal.Laws

noncomputable section

namespace Cert.Spec

open Idealize.ShloMosaic Idealize.ShloMosaic.ValueIdx
open scoped BigOperators

/-- The value both maximum reductions start from: the f32 pattern of −∞. -/
abbrev negInf : EReal := Ideal.ofBits .f32 0xFF800000#32

/-- It is the bottom of the extended reals. -/
theorem negInf_eq_bot : negInf = ⊥ := by
  show Ideal.ofBits .f32 0xFF800000#32 = ⊥
  simp [Ideal.ofBits, Ideal.ieee]

/-- The linear response of neighbour `k` of node `n` at output column `o`. -/
def lin (x : (⟨3, ![10000, 32, 128]⟩ : Shape).Idx → EReal) (W : (⟨2, ![128, 128]⟩ : Shape).Idx → EReal)
    (n : Fin 10000) (k : Fin 32) (o : Fin 128) : EReal :=
  ∑ d : Fin 128, x (ix3 n k d) * W (ix2 o d)

/-- The pooled value at node `n`, column `o`: the maximum over the neighbours of the responses, then the bias. -/
def pooledAt (x : (⟨3, ![10000, 32, 128]⟩ : Shape).Idx → EReal) (W : (⟨2, ![128, 128]⟩ : Shape).Idx → EReal)
    (b : (⟨1, ![128]⟩ : Shape).Idx → EReal) (n : Fin 10000) (o : Fin 128) : EReal :=
  (Finset.univ : Finset (Fin 32)).fold max negInf (fun k => lin x W n k o) + b (ix1 o)

/-- The whole result array. -/
def pooled (x : (⟨3, ![10000, 32, 128]⟩ : Shape).Idx → EReal) (W : (⟨2, ![128, 128]⟩ : Shape).Idx → EReal)
    (b : (⟨1, ![128]⟩ : Shape).Idx → EReal) : (⟨2, ![10000, 128]⟩ : Shape).Idx → EReal :=
  fun i => pooledAt x W b ⟨(i 0).val, idx2_lt0 i⟩ ⟨(i 1).val, idx2_lt1 i⟩

theorem pooled_ix2 (x : (⟨3, ![10000, 32, 128]⟩ : Shape).Idx → EReal) (W : (⟨2, ![128, 128]⟩ : Shape).Idx → EReal)
    (b : (⟨1, ![128]⟩ : Shape).Idx → EReal) (n : Fin 10000) (o : Fin 128) :
    pooled x W b (ix2 n o) = pooledAt x W b n o := rfl

/-- Adding a fixed extended real commutes with the maximum from −∞ over the neighbours. -/
theorem fold_max_add (f : Fin 32 → EReal) (c : EReal) :
    (Finset.univ : Finset (Fin 32)).fold max negInf f + c
      = (Finset.univ : Finset (Fin 32)).fold max negInf (fun k => f k + c) := by
  -- x ↦ x + c is monotone, so it carries max to max; and it fixes −∞.
  have hmono : Monotone (fun x : EReal => x + c) := fun a b hab => add_le_add hab le_rfl
  have hhom : ∀ a b : EReal, max a b + c = max (a + c) (b + c) := fun a b => hmono.map_max
  have hbot : negInf + c = negInf := by rw [negInf_eq_bot, EReal.bot_add]
  have h := Finset.fold_hom (op := max) (op' := max) (b := negInf) (f := f) (s := (Finset.univ : Finset (Fin 32)))
    (m := fun x : EReal => x + c) hhom
  rw [hbot] at h
  exact h.symm

end Cert.Spec

end
-- ==== Proof.KI.Payload.lean ====
/-
  What the kernel body stores, read at one element of a slab.

  Each of the body's five stored values is, at row r and column o of its slab, the maximum from −∞ over the 32
  neighbours k of Σ_d x[0, r, k, d] · w[d, o], plus the bias row's b[0, o] — x the stream's staged block, w the staged
  (already transposed) weight block. At the extended reals the two changes of float format are the identity and the
  matrix unit's product into a zero accumulator is the plain sum.
-/
import proofs.«118236_g6957847019598_cont_9to1c4b_83_9_alg».proof.Proof.Gen.KernelIdeal.Skeleton
import proofs.«118236_g6957847019598_cont_9to1c4b_83_9_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The value at row `r`, column `o` of a slab, from the staged weight block `w`, bias row `b` and stream block `x`. -/
def slabAt (w : Vec Ideal S128x128 .f32) (b : Vec Ideal S1x128 .f32) (x : Vec Ideal S1x200x32x128 .f32)
    (r : Fin 200) (o : Fin 128) : EReal :=
  (Finset.univ : Finset (Fin 32)).fold max Cert.Spec.negInf (fun k => ∑ d : Fin 128, x (ix4 (0 : Fin 1) r k d) * w (ix2 d o))
    + b (ix2 (0 : Fin 1) o)

/-! ### The matrix unit's product at an index

The dot's dimension numbers contract the left operand's axis 1 with the right operand's axis 0; the left operand's axis 0
and the right operand's axis 1 are the result's two axes. -/

private theorem dot_lhs_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
private theorem dot_lhs_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
private theorem dot_rhs_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
private theorem dot_rhs_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The product into a zero accumulator, at row `p` and column `o`, is the plain sum over the contracted axis. -/
private theorem matmul_at (lhs : FVec Ideal S6400x128 .bf16) (rhs : FVec Ideal S128x128 .bf16) (p : Fin 6400) (o : Fin 128) :
    matmul (F := Ideal) dot_S6400x128_S128x128_S6400x128_1_0_0_1_n_n none lhs rhs (constant (F := Ideal) S6400x128 .f32 0x00000000#32) (ix2 p o)
      = ∑ d : Fin 128, lhs (ix2 p d) * rhs (ix2 d o) := by
  refine (Ideal.matmul_constant_zero_apply dot_S6400x128_S128x128_S6400x128_1_0_0_1_n_n none lhs rhs (ix2 p o)).trans ?_
  rw [← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p o) ((contrEquiv1 dot_S6400x128_S128x128_S6400x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S6400x128_S128x128_S6400x128_1_0_0_1_n_n.rhsIdx (ix2 p o) ((contrEquiv1 dot_S6400x128_S128x128_S6400x128_1_0_0_1_n_n 128 rfl rfl).symm k) = ix2 k o := funext fun a => Fin.ext (by
    match a with
    | ⟨0, _⟩ => exact (dot_rhs_0 _ _).trans hk
    | ⟨1, _⟩ => exact dot_rhs_1 _ _)
  rw [el, er]

/-! ### The two reshapes: row `r · 32 + k` of the flat matrix is neighbour `k` of node `r` -/

/-- The flat row of neighbour `k` of node `r`. -/
private def flatRow (r : Fin 200) (k : Fin 32) : Fin 6400 := ⟨r.val * 32 + k.val, by omega⟩

private theorem flat_at (x' : FVec Ideal S1x200x32x128 .f32) (r : Fin 200) (k : Fin 32) (d : Fin 128) :
    shapeCast S6400x128 x' shapeCasts_S1x200x32x128_S6400x128 (ix2 (flatRow r k) d) = x' (ix4 (0 : Fin 1) r k d) :=
  shapeCast_apply x' shapeCasts_S1x200x32x128_S6400x128 _ _ (by
    rw [Shape.rowMajor_val_four, Shape.rowMajor_val_two]
    show (((0 : Fin 1).val * 200 + r.val) * 32 + k.val) * 128 + d.val = (r.val * 32 + k.val) * 128 + d.val
    simp)

private theorem unflat_at (y : FVec Ideal S6400x128 .f32) (r : Fin 200) (k : Fin 32) (o : Fin 128) :
    shapeCast S200x32x128 y shapeCasts_S6400x128_S200x32x128 (ix3 r k o) = y (ix2 (flatRow r k) o) :=
  shapeCast_apply y shapeCasts_S6400x128_S200x32x128 _ _ (by
    rw [Shape.rowMajor_val_two, Shape.rowMajor_val_three]
    rfl)

/-! ### The maximum over the neighbours -/

private theorem rowmax_at (v : FVec Ideal S200x32x128 .f32) (r : Fin 200) (o : Fin 128) :
    multiReduction (F := Ideal) .maximumf [1] S200x128 v 0xFF800000#32 reduces_S200x32x128_S200x128 (.inl rfl) rfl (ix2 r o)
      = (Finset.univ : Finset (Fin 32)).fold max Cert.Spec.negInf (fun k => v (ix3 r k o)) := by
  refine (Ideal.multiReduction_maximumf_single v 0xFF800000#32 reduces_S200x32x128_S200x128 (.inl rfl) rfl (ix2 r o)).trans ?_
  show (Finset.univ : Finset (Fin 32)).fold max Cert.Spec.negInf (fun k => v (reduces_S200x32x128_S200x128.lift (ix2 r o) k)) = _
  have e : ∀ k : Fin 32, reduces_S200x32x128_S200x128.lift (ix2 r o) k = ix3 r k o := fun k => funext fun a => Fin.ext (by
    match a with
    | ⟨0, _⟩ => rfl
    | ⟨1, _⟩ => rfl
    | ⟨2, _⟩ => rfl)
  exact congrArg (fun f : Fin 32 → EReal => (Finset.univ : Finset (Fin 32)).fold max Cert.Spec.negInf f) (funext fun k => congrArg v (e k))

/-! ### The whole chain -/

/-- The chain from the staged blocks — the weight block already narrowed — to a slab. -/
private def core (w' : FVec Ideal S128x128 .bf16) (b' : FVec Ideal S1x128 .f32) (x' : FVec Ideal S1x200x32x128 .f32) :
    FVec Ideal S1x200x128 .f32 :=
  shapeCast S1x200x128
    (addf
      (multiReduction (F := Ideal) .maximumf [1] S200x128
        (shapeCast S200x32x128
          (matmul (F := Ideal) dot_S6400x128_S128x128_S6400x128_1_0_0_1_n_n none
            (truncf .bf16 (shapeCast S6400x128 x' shapeCasts_S1x200x32x128_S6400x128) bitsLt_bf16_f32) w'
            (constant (F := Ideal) S6400x128 .f32 0x00000000#32))
          shapeCasts_S6400x128_S200x32x128)
        0xFF800000#32 reduces_S200x32x128_S200x128 (.inl rfl) rfl)
      (broadcastTo S200x128 b' broadcasts_S1x128_S200x128))
    shapeCasts_S200x128_S1x200x128

private theorem core_at (w' : FVec Ideal S128x128 .bf16) (b' : FVec Ideal S1x128 .f32) (x' : FVec Ideal S1x200x32x128 .f32)
    (r : Fin 200) (o : Fin 128) :
    core w' b' x' (ix3 (0 : Fin 1) r o)
      = (Finset.univ : Finset (Fin 32)).fold max Cert.Spec.negInf (fun k => ∑ d : Fin 128, x' (ix4 (0 : Fin 1) r k d) * w' (ix2 d o))
        + b' (ix2 (0 : Fin 1) o) := by
  unfold core
  refine (shapeCast_ab_1ab_apply _ shapeCasts_S200x128_S1x200x128 (0 : Fin 1) r o).trans ?_
  rw [addf_apply, rowmax_at, broadcastTo_1b_ab_apply]
  congr 2
  funext k
  rw [unflat_at, matmul_at]
  refine Finset.sum_congr rfl fun d _ => ?_
  rw [truncf_apply, flat_at]

/-- The chain at blocks that read as the staged ones is the slab's value. -/
private theorem core_slab (w : Vec Ideal S128x128 .f32) (b : Vec Ideal S1x128 .f32) (x : Vec Ideal S1x200x32x128 .f32)
    (w' : FVec Ideal S128x128 .bf16) (b' : FVec Ideal S1x128 .f32) (x' : FVec Ideal S1x200x32x128 .f32)
    (hw : ∀ d o : Fin 128, w' (ix2 d o) = w (ix2 d o)) (hb : b' = b) (hx : x' = x) (r : Fin 200) (o : Fin 128) :
    core w' b' x' (ix3 (0 : Fin 1) r o) = slabAt w b x r o := by
  subst hb hx
  refine (core_at w' b' x' r o).trans ?_
  unfold slabAt
  refine congrArg (fun f : Fin 32 → EReal => (Finset.univ : Finset (Fin 32)).fold max Cert.Spec.negInf f + b' (ix2 (0 : Fin 1) o)) (funext fun k => ?_)
  refine Finset.sum_congr rfl fun d _ => ?_
  rw [hw d o]

/-- The narrowed weight block reads as the staged one: a reshape to the same shape, and a change of format that is the
    identity on the extended reals. -/
private theorem pay1_at (w : Vec Ideal S128x128 .f32) (d o : Fin 128) : k0_pay1 (F := Ideal) w (ix2 d o) = w (ix2 d o) := by
  unfold k0_pay1
  rw [shapeCast_self]
  rfl

/-- The bias row's reshape to its own shape is the identity. -/
private theorem pay2_eq (b : Vec Ideal S1x128 .f32) : k0_pay2 (F := Ideal) b = b :=
  shapeCast_self b shapeCasts_S1x128_S1x128

/-- The stream block's reshape to its own shape is the identity. -/
private theorem stream_eq (x : Vec Ideal S1x200x32x128 .f32) :
    shapeCast S1x200x32x128 x shapeCasts_S1x200x32x128_S1x200x32x128 = x :=
  shapeCast_self x shapeCasts_S1x200x32x128_S1x200x32x128

theorem pay3_at (w : Vec Ideal S128x128 .f32) (b : Vec Ideal S1x128 .f32) (x : Vec Ideal S1x200x32x128 .f32) (r : Fin 200) (o : Fin 128) :
    k0_pay3 (F := Ideal) w b x (ix3 (0 : Fin 1) r o) = slabAt w b x r o := by
  show core (k0_pay1 w) (k0_pay2 b) (shapeCast S1x200x32x128 x shapeCasts_S1x200x32x128_S1x200x32x128) (ix3 (0 : Fin 1) r o) = _
  exact core_slab w b x _ _ _ (pay1_at w) (pay2_eq b) (stream_eq x) r o

theorem pay4_at (w : Vec Ideal S128x128 .f32) (b : Vec Ideal S1x128 .f32) (x : Vec Ideal S1x200x32x128 .f32) (r : Fin 200) (o : Fin 128) :
    k0_pay4 (F := Ideal) w b x (ix3 (0 : Fin 1) r o) = slabAt w b x r o := by
  show core (k0_pay1 w) (k0_pay2 b) (shapeCast S1x200x32x128 x shapeCasts_S1x200x32x128_S1x200x32x128) (ix3 (0 : Fin 1) r o) = _
  exact core_slab w b x _ _ _ (pay1_at w) (pay2_eq b) (stream_eq x) r o

theorem pay6_at (w : Vec Ideal S128x128 .f32) (b : Vec Ideal S1x128 .f32) (x : Vec Ideal S1x200x32x128 .f32) (r : Fin 200) (o : Fin 128) :
    k0_pay6 (F := Ideal) (k0_pay1 w) (k0_pay2 b) (k0_pay5 x) (ix3 (0 : Fin 1) r o) = slabAt w b x r o := by
  show core (k0_pay1 w) (k0_pay2 b) (k0_pay5 x) (ix3 (0 : Fin 1) r o) = _
  exact core_slab w b x _ _ _ (pay1_at w) (pay2_eq b) (stream_eq x) r o

theorem pay7_at (w : Vec Ideal S128x128 .f32) (b : Vec Ideal S1x128 .f32) (x : Vec Ideal S1x200x32x128 .f32) (r : Fin 200) (o : Fin 128) :
    k0_pay7 (F := Ideal) (k0_pay1 w) (k0_pay2 b) x (ix3 (0 : Fin 1) r o) = slabAt w b x r o := by
  show core (k0_pay1 w) (k0_pay2 b) (shapeCast S1x200x32x128 x shapeCasts_S1x200x32x128_S1x200x32x128) (ix3 (0 : Fin 1) r o) = _
  exact core_slab w b x _ _ _ (pay1_at w) (pay2_eq b) (stream_eq x) r o

theorem pay8_at (w : Vec Ideal S128x128 .f32) (b : Vec Ideal S1x128 .f32) (x : Vec Ideal S1x200x32x128 .f32) (r : Fin 200) (o : Fin 128) :
    k0_pay8 (F := Ideal) (k0_pay1 w) (k0_pay2 b) x (ix3 (0 : Fin 1) r o) = slabAt w b x r o := by
  show core (k0_pay1 w) (k0_pay2 b) (shapeCast S1x200x32x128 x shapeCasts_S1x200x32x128_S1x200x32x128) (ix3 (0 : Fin 1) r o) = _
  exact core_slab w b x _ _ _ (pay1_at w) (pay2_eq b) (stream_eq x) r o

end Cert.KernelIdeal.Hand

end
-- ==== Proof.KI.Value.lean ====
/-
  The value of the idealized program: its result is the specification of its arguments.

  At grid point t the output buffer's slab j holds, at row r and column o, the pooled value of node j·2000 + 200·t + r
  at column o: the staged stream block is that node's neighbourhood, the staged weight block the transposed weight
  matrix, the staged bias row the bias (`slab_value`). So what point t writes back is block t of ONE function of the
  result array's index (`resG`); the ten blocks tile the array by rows, so the array ends holding that function, and
  laying its five streams end to end gives the pooled value at every node.
-/
import proofs.«118236_g6957847019598_cont_9to1c4b_83_9_alg».proof.Proof.KI.Frame
import proofs.«118236_g6957847019598_cont_9to1c4b_83_9_alg».proof.Proof.KI.Blocks
import proofs.«118236_g6957847019598_cont_9to1c4b_83_9_alg».proof.Proof.KI.Payload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- A slab's value at row `r` is the pooled value of the node whose neighbourhood the staged stream block's row `r` is,
    when the staged weight block is the transposed weight matrix and the staged bias row the bias. -/
theorem slab_value (X : (⟨3, ![10000, 32, 128]⟩ : Shape).Idx → EReal) (W : (⟨2, ![128, 128]⟩ : Shape).Idx → EReal)
    (B : (⟨1, ![128]⟩ : Shape).Idx → EReal) (n : Fin 10000)
    (w : Vec Ideal S128x128 .f32) (b : Vec Ideal S1x128 .f32) (x : Vec Ideal S1x200x32x128 .f32) (r : Fin 200) (o : Fin 128)
    (hw : ∀ d o, w (ix2 d o) = W (ix2 o d)) (hb : ∀ o, b (ix2 (0 : Fin 1) o) = B (ix1 o))
    (hx : ∀ k d, x (ix4 (0 : Fin 1) r k d) = X (ix3 n k d)) :
    slabAt w b x r o = Cert.Spec.pooledAt X W B n o := by
  unfold slabAt Cert.Spec.pooledAt Cert.Spec.lin
  rw [hb]
  congr 1
  exact Finset.fold_congr fun k _ => Finset.sum_congr rfl fun d _ => by rw [hx, hw]

/-- The result array as ONE function of its index: at (stream s, row q, column o) the pooled value of node
    s · 2000 + q. -/
def resG (c : Dev nD) : S5x2000x128.Idx → EReal := fun i =>
  Cert.Spec.pooledAt (m ((c : Thread nD τ).loc main_arg0)) (m ((c : Thread nD τ).loc main_arg1)) (m ((c : Thread nD τ).loc main_arg2))
    (node ⟨(i 0).val, (i 0).isLt⟩ ⟨(i 1).val, (i 1).isLt⟩) ⟨(i 2).val, (i 2).isLt⟩

theorem resG_ix3 (c : Dev nD) (s : Fin 5) (q : Fin 2000) (o : Fin 128) :
    resG m c (ix3 s q o) = Cert.Spec.pooledAt (m ((c : Thread nD τ).loc main_arg0)) (m ((c : Thread nD τ).loc main_arg1))
      (m ((c : Thread nD τ).loc main_arg2)) (node s q) o := rfl

theorem zero3 : (![0, 0, 0, 0] : Fin 4 → Nat) = fun _ => 0 := funext fun a => by fin_cases a <;> rfl
theorem zero2 : (![0, 0] : Fin 2 → Nat) = fun _ => 0 := funext fun a => by fin_cases a <;> rfl

/-- Every index of a slab is (0, r, o) for a row r and a column o: its leading axis has one element. -/
theorem slab_idx (x : S1x200x128.Idx) : ∃ (r : Fin 200) (o : Fin 128), x = ix3 (0 : Fin 1) r o := by
  have h0 : (x 0).val < 1 := (x 0).isLt
  have e0 : x 0 = (0 : Fin 1) := Fin.ext (by show (x 0).val = 0; omega)
  exact ⟨x 1, x 2, (eq_ix3 x).trans (congrArg (fun z : Fin 1 => ix3 z (x 1) (x 2)) e0)⟩

/-- Element (0, r, o) of slab `j` is element (j, r, o) of the output buffer. -/
theorem slab_emb (j : Fin 5) (r : Fin 200) (o : Fin 128) {off : Fin 3 → Nat} {inb : ∀ a, off a + S1x200x128.size a ≤ S5x200x128.size a}
    (h : off = ![j.val, 0, 0]) :
    (Rect.unit (s := S5x200x128) off S1x200x128.size inb).emb (ix3 (0 : Fin 1) r o) = ix3 j r o := by
  subst h
  funext a; apply Fin.ext
  match a with
  | ⟨0, _⟩ => show j.val + 1 * 0 = j.val; omega
  | ⟨1, _⟩ => show 0 + 1 * r.val = r.val; omega
  | ⟨2, _⟩ => show 0 + 1 * o.val = o.val; omega

/-- WHAT POINT `t` WRITES BACK is block `t` of `resG`. -/
theorem flushed7_eq (c : Dev nD) (t : Fin cfg0.N) :
    (dats m 0 c).flushed 7 t = ((cfg0.win 7).blk t).view.read (Elt Ideal) (resG m c) := by
  show (cfg0.win 7).cut (grid0.coords t) ((dats m 0 c).after 7 t) = _
  rw [after_7]
  unfold left7
  simp only [View.ld_unit_zero (S := S1x200x32x128) zero3, View.ld_unit_zero (S := S128x128) zero2, View.ld_unit_zero (S := S1x128) zero2]
  funext y
  refine (View.canon_apply_of_pieces (fun y => resG m c (((cfg0.win 7).blk t).view.emb y)) _ ?_ y (slabs_cover _ _ _ _ _ y)).trans rfl
  intro p hp x
  simp only [List.mem_cons, List.mem_nil_iff, or_false] at hp
  rcases hp with rfl | rfl | rfl | rfl | rfl
  · -- stream 4
    obtain ⟨r, o, rfl⟩ := slab_idx x
    show k0_pay8 (F := Ideal) (k0_pay1 (iblk m c 5 t)) (k0_pay2 (iblk m c 6 t)) (iblk m c 4 t) (ix3 (0 : Fin 1) r o) = resG m c (((cfg0.win 7).blk t).view.emb (slab4.emb (ix3 (0 : Fin 1) r o)))
    rw [show slab4.emb (ix3 (0 : Fin 1) r o) = ix3 (4 : Fin 5) r o from slab_emb 4 r o (by decide), oblock_emb, resG_ix3]
    exact (pay8_at _ _ _ r o).trans (slab_value _ _ _ _ _ _ _ r o (fun d o => wblock_at m c t d o) (fun o => bblock_at m c t o)
      (fun k d => xblock4_at m c t r k d))
  · -- stream 3
    obtain ⟨r, o, rfl⟩ := slab_idx x
    show k0_pay7 (F := Ideal) (k0_pay1 (iblk m c 5 t)) (k0_pay2 (iblk m c 6 t)) (iblk m c 3 t) (ix3 (0 : Fin 1) r o) = resG m c (((cfg0.win 7).blk t).view.emb (slab3.emb (ix3 (0 : Fin 1) r o)))
    rw [show slab3.emb (ix3 (0 : Fin 1) r o) = ix3 (3 : Fin 5) r o from slab_emb 3 r o (by decide), oblock_emb, resG_ix3]
    exact (pay7_at _ _ _ r o).trans (slab_value _ _ _ _ _ _ _ r o (fun d o => wblock_at m c t d o) (fun o => bblock_at m c t o)
      (fun k d => xblock3_at m c t r k d))
  · -- stream 2
    obtain ⟨r, o, rfl⟩ := slab_idx x
    show k0_pay6 (F := Ideal) (k0_pay1 (iblk m c 5 t)) (k0_pay2 (iblk m c 6 t)) (k0_pay5 (iblk m c 2 t)) (ix3 (0 : Fin 1) r o) = resG m c (((cfg0.win 7).blk t).view.emb (slab2.emb (ix3 (0 : Fin 1) r o)))
    rw [show slab2.emb (ix3 (0 : Fin 1) r o) = ix3 (2 : Fin 5) r o from slab_emb 2 r o (by decide), oblock_emb, resG_ix3]
    exact (pay6_at _ _ _ r o).trans (slab_value _ _ _ _ _ _ _ r o (fun d o => wblock_at m c t d o) (fun o => bblock_at m c t o)
      (fun k d => xblock2_at m c t r k d))
  · -- stream 1
    obtain ⟨r, o, rfl⟩ := slab_idx x
    show k0_pay4 (F := Ideal) (iblk m c 5 t) (iblk m c 6 t) (iblk m c 1 t) (ix3 (0 : Fin 1) r o) = resG m c (((cfg0.win 7).blk t).view.emb (slab1.emb (ix3 (0 : Fin 1) r o)))
    rw [show slab1.emb (ix3 (0 : Fin 1) r o) = ix3 (1 : Fin 5) r o from slab_emb 1 r o (by decide), oblock_emb, resG_ix3]
    exact (pay4_at _ _ _ r o).trans (slab_value _ _ _ _ _ _ _ r o (fun d o => wblock_at m c t d o) (fun o => bblock_at m c t o)
      (fun k d => xblock1_at m c t r k d))
  · -- stream 0
    obtain ⟨r, o, rfl⟩ := slab_idx x
    show k0_pay3 (F := Ideal) (iblk m c 5 t) (iblk m c 6 t) (iblk m c 0 t) (ix3 (0 : Fin 1) r o) = resG m c (((cfg0.win 7).blk t).view.emb (slab0.emb (ix3 (0 : Fin 1) r o)))
    rw [show slab0.emb (ix3 (0 : Fin 1) r o) = ix3 (0 : Fin 5) r o from slab_emb 0 r o (by decide), oblock_emb, resG_ix3]
    exact (pay3_at _ _ _ r o).trans (slab_value _ _ _ _ _ _ _ r o (fun d o => wblock_at m c t d o) (fun o => bblock_at m c t o)
      (fun k d => xblock0_at m c t r k d))

/-- Every element of the result array lies in some point's block: the ten blocks tile it by rows. -/
theorem out_cover (i : S5x2000x128.Idx) :
    ∃ t : Fin cfg0.N, (cfg0.win 7).flush t = true ∧ i ∈ ((cfg0.win 7).blk t).view.set := by
  have hi : (i 1).val < 2000 := (i 1).isLt
  have hN : cfg0.N = 10 := N_0
  refine ⟨⟨(i 1).val / 200, by rw [hN]; omega⟩, flush0_7 _, ?_⟩
  rw [oblock_mem]
  show (i 1).val / 200 * 200 ≤ (i 1).val ∧ (i 1).val < (i 1).val / 200 * 200 + 200
  omega

/-- THE RESULT ARRAY after the run. -/
theorem final7 (c : Dev nD) : (dats m 0 c).arrAt 7 cfg0.N = resG m c :=
  (dats m 0 c).arrAt_eq_of_cover 7 (resG m c) (fun t _ => flushed7_eq m c t) out_cover

/-- Its five streams laid end to end are the specification of the arguments. -/
theorem result_eq (c : Dev nD) :
    shapeCast S10000x128 ((dats m 0 c).arrAt 7 cfg0.N) shapeCasts_S5x2000x128_S10000x128
      = Cert.Spec.pooled (m ((c : Thread nD τ).loc main_arg0)) (m ((c : Thread nD τ).loc main_arg1)) (m ((c : Thread nD τ).loc main_arg2)) := by
  rw [final7]
  funext i
  obtain ⟨n, o, rfl⟩ : ∃ (n : Fin 10000) (o : Fin 128), i = ix2 n o := ⟨i 0, i 1, eq_ix2 i⟩
  obtain ⟨s, q, rfl⟩ := node_surj n
  rw [unstream_at, resG_ix3, Cert.Spec.pooled_ix2]

/-- THE VALUE RUN: every weakly fair execution terminates with the result at the specification of the arguments and the
    arguments unchanged. -/
theorem run_value : θ_run defs (onTc (τ := τ) (main (F := Ideal))) ⟨m, fun _ => 0, ρ⟩ (fun r => ∀ c : Dev nD,
      r.2.mem ((c.tc : Thread nD τ).loc main_v4)
        = Cert.Spec.pooled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m c), (h c).2⟩) (run_result m ρ)

end Cert.KernelIdeal.Hand

end
-- ==== Proof.RefSide.lean ====
/-
  The reference program's result, read at the extended reals, is the specification.
-/
import proofs.«118236_g6957847019598_cont_9to1c4b_83_9_alg».proof.Proof.Gen.ReferenceIdeal.Read
import proofs.«118236_g6957847019598_cont_9to1c4b_83_9_alg».proof.Proof.Spec

noncomputable section

namespace Cert.RefSide

open Cert.ReferenceIdeal Cert.ReferenceIdeal.Gen Idealize.ShloMosaic Idealize.ShloMosaic.ValueIdx
open scoped BigOperators

/-- The neighbour axis is the one the reference's reduction drops. -/
private theorem hred : S10000x32x128.Reduces [1] S10000x128 := by decide

/-- Over the result index (n, o), the source index with neighbour coordinate k is (n, k, o). -/
private theorem lift_ix (n : Fin 10000) (k : Fin 32) (o : Fin 128) :
    hred.lift (ix2 n o) k = ix3 n k o :=
  funext fun a => Fin.ext (by
    match a with
    | ⟨0, _⟩ => rfl
    | ⟨1, _⟩ => rfl
    | ⟨2, _⟩ => rfl)

/-- The contraction reads the left operand at (n, k, d) … -/
private theorem lidx_ix (n : Fin 10000) (k : Fin 32) (o : Fin 128) (d : Fin 128) :
    Read.lidx_main_v0 (ix3 n k o) d = ix3 n k d :=
  funext fun a => Fin.ext (by
    match a with
    | ⟨0, _⟩ => rfl
    | ⟨1, _⟩ => rfl
    | ⟨2, _⟩ => rfl)

/-- … and the right operand at (o, d). -/
private theorem ridx_ix (n : Fin 10000) (k : Fin 32) (o : Fin 128) (d : Fin 128) :
    Read.ridx_main_v0 (ix3 n k o) d = ix2 o d :=
  funext fun a => Fin.ext (by
    match a with
    | ⟨0, _⟩ => rfl
    | ⟨1, _⟩ => rfl)

/-- The two broadcasts read the bias at the column. -/
private theorem bidx_ix (n : Fin 10000) (k : Fin 32) (o : Fin 128) :
    Read.idx_main_v1 (Read.idx_main_v2 (ix3 n k o)) = ix1 o :=
  funext fun a => Fin.ext (by
    match a with
    | ⟨0, _⟩ => rfl)

/-- The reduced array at (n, k, o): the linear response plus the bias. -/
private theorem v3_at (x0 : (⟨S10000x32x128, .f32⟩ : BufTy).Contents (Elt Ideal)) (x1 : (⟨S128x128, .f32⟩ : BufTy).Contents (Elt Ideal))
    (x2 : (⟨S128, .f32⟩ : BufTy).Contents (Elt Ideal)) (n : Fin 10000) (k : Fin 32) (o : Fin 128) :
    Read.val_main_v3 (F := Ideal) x0 x1 x2 (ix3 n k o) = Cert.Spec.lin x0 x1 n k o + x2 (ix1 o) := by
  rw [Read.val_main_v3_apply, Read.val_main_v0_apply, Read.val_main_v2_apply, Read.val_main_v1_apply, bidx_ix,
    Ideal.addf_def]
  unfold Cert.Spec.lin
  congr 1
  refine Finset.sum_congr rfl fun d _ => ?_
  rw [lidx_ix, ridx_ix]

/-- The reference's last stage — the maximum over the neighbour axis of the biased responses — is `Cert.Spec.pooled` of
    its three arguments. -/
theorem ref_eq_pooled (x0 : (⟨S10000x32x128, .f32⟩ : BufTy).Contents (Elt Ideal)) (x1 : (⟨S128x128, .f32⟩ : BufTy).Contents (Elt Ideal))
    (x2 : (⟨S128, .f32⟩ : BufTy).Contents (Elt Ideal)) :
    Cert.ReferenceIdeal.Read.val_main_v4 (F := Ideal) x0 x1 x2 = Cert.Spec.pooled x0 x1 x2 := by
  funext i
  obtain ⟨n, o, rfl⟩ : ∃ (n : Fin 10000) (o : Fin 128), i = ix2 n o := ⟨i 0, i 1, eq_ix2 i⟩
  rw [Cert.Spec.pooled_ix2]
  unfold Read.val_main_v4 Cert.Spec.pooledAt
  rw [Host.reduce_eq_fold_single FloatOps.maximumf _ _ _ hred _ (ix2 n o), Cert.Spec.fold_max_add]
  -- both sides are the maximum from −∞ over the 32 neighbours; compare the summands
  have hf : (fun k : Fin 32 => Read.val_main_v3 (F := Ideal) x0 x1 x2 (hred.lift (ix2 n o) k))
      = fun k : Fin 32 => Cert.Spec.lin x0 x1 n k o + x2 (ix1 o) := by
    funext k
    rw [lift_ix, v3_at]
  exact congrArg (fun g : Fin 32 → EReal => (Finset.univ : Finset (Fin 32)).fold max Cert.Spec.negInf g) hf

end Cert.RefSide

end
-- ==== Proof.lean ====
/-
  GraphSAGE max-pool aggregation: a kernel that streams the neighbour array through five windows against the plain
  `max over neighbours of (x · Wᵀ + b)`.

  For node n and output column o the idealized kernel computes max_k (Σ_d x[n, k, d] · W[o, d]) + b[o], the maximum
  taken from −∞ over the node's 32 neighbours; the reference adds the bias before the maximum. On the extended reals
  adding a fixed value is monotone and −∞ + c = −∞, so the two agree at every input (no finiteness is used). The kernel
  reads the neighbour array as five contiguous streams of 2000 nodes, one window per stream on ONE array; its frame is
  proved from the launch of a kernel call whose input windows share an array, each window holding a part of the
  array's share, and the host operation after the call is run by hand from the call's exit. The word-level kernel's
  frame is the same argument read at the word-level instance. There is no rewrite in the idealization, so `preserves`
  is trivial.
-/
import proofs.«118236_g6957847019598_cont_9to1c4b_83_9_alg».proof.Defs
import proofs.«118236_g6957847019598_cont_9to1c4b_83_9_alg».proof.Proof.Gen.Kernel
import proofs.«118236_g6957847019598_cont_9to1c4b_83_9_alg».proof.Proof.Gen.KernelIdeal
import proofs.«118236_g6957847019598_cont_9to1c4b_83_9_alg».proof.Proof.Gen.ReferenceIdeal
import proofs.«118236_g6957847019598_cont_9to1c4b_83_9_alg».proof.Proof.Gen.ReferenceIdeal.Run
import proofs.«118236_g6957847019598_cont_9to1c4b_83_9_alg».proof.Proof.Gen.Pre_finite_inputs
import proofs.«118236_g6957847019598_cont_9to1c4b_83_9_alg».proof.Proof.K.Frame
import proofs.«118236_g6957847019598_cont_9to1c4b_83_9_alg».proof.Proof.KI.Value
import proofs.«118236_g6957847019598_cont_9to1c4b_83_9_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the pooled value of their (agreeing) arguments. -/
theorem algebraic : Cert.algebraic_KernelIdeal_ReferenceIdeal := by
  intro m ρ m' ρ' _ hagree
  refine ⟨fun c => Cert.Spec.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefSide.ref_eq_pooled, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
